-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S1600000 32) (main_v13 : IVec S_ 1) (main_v15 : IVec S1600000 1) (main_c_5 : IVec S_ 1) : IVec S_ 1 :=
  let main_v16 : IVec S_ 1 := (fun x v => Host.reduce IntOp.andi x v reducesTo_S1600000_S_d0 h_S_) main_v15 main_c_5
  let main_v17 : IVec S_ 1 := andi main_v13 main_v16
  let main_c_6 : IVec S_ 32 := constantI S_ 32 100000#32
  let main_v18 : IVec S1600000 32 := broadcastInDim S1600000 ![] bcast_S_S1600000 main_c_6
  let main_v19 : IVec S1600000 1 := cmpi .slt main_arg1 main_v18
  let main_c_7 : IVec S_ 1 := constantI S_ 1 1#1
  let main_v20 : IVec S_ 1 := (fun x v => Host.reduce IntOp.andi x v reducesTo_S1600000_S_d0 h_S_) main_v19 main_c_7
  let main_v21 : IVec S_ 1 := andi main_v17 main_v20
  main_v21

def fn {F : FTy → Type} [FloatOps F] (main_arg0 : FVec F S100000x32 .f32) (main_arg1 : IVec S1600000 32) (main_arg2 : IVec S1600000 32) (main_arg3 : FVec F S32x32 .f32) (main_arg4 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg1 main_v14
  let main_c_5 : IVec S_ 1 := constantI S_ 1 1#1
  fn_part1 (F := F) main_arg1 main_v13 main_v15 main_c_5
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S100352x32 : Shape := ⟨2, ![100352, 32]⟩
abbrev S32x100352 : Shape := ⟨2, ![32, 100352]⟩
abbrev S1601536 : Shape := ⟨1, ![1601536]⟩
abbrev S2048 : Shape := ⟨1, ![2048]⟩
abbrev S32x2048 : Shape := ⟨2, ![32, 2048]⟩
abbrev S1x2048 : Shape := ⟨2, ![1, 2048]⟩
abbrev S2048x1 : Shape := ⟨2, ![2048, 1]⟩
abbrev S2048x2048 : Shape := ⟨2, ![2048, 2048]⟩
abbrev S32x100000 : Shape := ⟨2, ![32, 100000]⟩
abbrev S1000x32 : Shape := ⟨2, ![1000, 32]⟩
abbrev S1x32 : Shape := ⟨2, ![1, 32]⟩

abbrev nBuf : Space → Nat
  | .hbm => 20
  | .vmem => 13
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S_, .i32⟩
  | .hbm, ⟨6, _⟩ => ⟨S_, .f32⟩
  | .hbm, ⟨7, _⟩ => ⟨S100352x32, .f32⟩
  | .hbm, ⟨8, _⟩ => ⟨S32x100352, .f32⟩
  | .hbm, ⟨9, _⟩ => ⟨S_, .i32⟩
  | .hbm, ⟨10, _⟩ => ⟨S_, .i32⟩
  | .hbm, ⟨11, _⟩ => ⟨S1601536, .i32⟩
  | .hbm, ⟨12, _⟩ => ⟨S_, .i32⟩
  | .hbm, ⟨13, _⟩ => ⟨S_, .i32⟩
  | .hbm, ⟨14, _⟩ => ⟨S1601536, .i32⟩
  | .hbm, ⟨15, _⟩ => ⟨S32x100352, .f32⟩
  | .hbm, ⟨16, _⟩ => ⟨S32x100000, .f32⟩
  | .hbm, ⟨17, _⟩ => ⟨S100000x32, .f32⟩
  | .hbm, ⟨18, _⟩ => ⟨S32x32, .f32⟩
  | .hbm, ⟨19, _⟩ => ⟨S100000x32, .f32⟩
  | .local _ .vmem, ⟨0, _⟩ => ⟨S2048, .i32⟩
  | .local _ .vmem, ⟨1, _⟩ => ⟨S2048, .i32⟩
  | .local _ .vmem, ⟨2, _⟩ => ⟨S2048, .i32⟩
  | .local _ .vmem, ⟨3, _⟩ => ⟨S2048, .i32⟩
  | .local _ .vmem, ⟨4, _⟩ => ⟨S32x100352, .f32⟩
  | .local _ .vmem, ⟨5, _⟩ => ⟨S32x100352, .f32⟩
  | .local _ .vmem, ⟨6, _⟩ => ⟨S32x2048, .f32⟩
  | .local _ .vmem, ⟨7, _⟩ => ⟨S1000x32, .f32⟩
  | .local _ .vmem, ⟨8, _⟩ => ⟨S1000x32, .f32⟩
  | .local _ .vmem, ⟨9, _⟩ => ⟨S32x32, .f32⟩
  | .local _ .vmem, ⟨10, _⟩ => ⟨S32, .f32⟩
  | .local _ .vmem, ⟨11, _⟩ => ⟨S1000x32, .f32⟩
  | .local _ .vmem, ⟨12, _⟩ => ⟨S1000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![782], ![false]⟩

@[reducible] def k0_t1_loop : Scf.Loop 32 :=
  let c0_i32_4 : BitVec 32 := 0#32
  let c49_i32 : BitVec 32 := 49#32
  let v13 : BitVec 32 := Scalar.addi c0_i32_4 c49_i32
  let c1_i32 : BitVec 32 := 1#32
  ⟨c0_i32_4, v13, c1_i32⟩
def k0_mult1 (k0_t1 : Fin k0_t1_loop.trips) : BitVec 32 :=
  let c0_i32_13 : BitVec 32 := 0#32
  let c0_i32_4 : BitVec 32 := 0#32
  let c1_i32 : BitVec 32 := 1#32
  let arg6 : BitVec 32 := Scf.iv c0_i32_4 c1_i32 k0_t1
  let c1_i32_12 : BitVec 32 := 1#32
  let v17 : BitVec 32 := Scalar.muli arg6 c1_i32_12
  let v18 : BitVec 32 := Scalar.addi c0_i32_13 v17
  let c2048_i32 : BitVec 32 := 2048#32
  let v19 : BitVec 32 := Scalar.muli v18 c2048_i32
  v19
def k0_off1 (k0_t1 : Fin k0_t1_loop.trips) : Fin 2 → Nat :=
  let c0_14 : Index := 0#32
  let c0_i32_13 : BitVec 32 := 0#32
  let c0_i32_4 : BitVec 32 := 0#32
  let c1_i32 : BitVec 32 := 1#32
  let arg6 : BitVec 32 := Scf.iv c0_i32_4 c1_i32 k0_t1
  let c1_i32_12 : BitVec 32 := 1#32
  let v17 : BitVec 32 := Scalar.muli arg6 c1_i32_12
  let v18 : BitVec 32 := Scalar.addi c0_i32_13 v17
  let c2048_i32 : BitVec 32 := 2048#32
  let v19 : BitVec 32 := Scalar.muli v18 c2048_i32
  let v20 : BitVec 32 := v19
  let v30 : Index := Scalar.indexCast v20
  ![0, v30.toNat]
@[reducible] def k0_t2_loop : Scf.Loop 32 :=
  let c0_i32_8 : BitVec 32 := 0#32
  let c49_i32_9 : BitVec 32 := 49#32
  let v16 : BitVec 32 := Scalar.addi c0_i32_8 c49_i32_9
  let c1_i32_10 : BitVec 32 := 1#32
  ⟨c0_i32_8, v16, c1_i32_10⟩
def k0_mult2 (k0_t2 : Fin k0_t2_loop.trips) : BitVec 32 :=
  let c0_i32_13 : BitVec 32 := 0#32
  let c0_i32_8 : BitVec 32 := 0#32
  let c1_i32_10 : BitVec 32 := 1#32
  let arg6 : BitVec 32 := Scf.iv c0_i32_8 c1_i32_10 k0_t2
  let c1_i32_12 : BitVec 32 := 1#32
  let v17 : BitVec 32 := Scalar.muli arg6 c1_i32_12
  let v18 : BitVec 32 := Scalar.addi c0_i32_13 v17
  let c2048_i32 : BitVec 32 := 2048#32
  let v19 : BitVec 32 := Scalar.muli v18 c2048_i32
  v19
def k0_off2 (k0_t2 : Fin k0_t2_loop.trips) : Fin 2 → Nat :=
  let c0_15 : Index := 0#32
  let c0_i32_13 : BitVec 32 := 0#32
  let c0_i32_8 : BitVec 32 := 0#32
  let c1_i32_10 : BitVec 32 := 1#32
  let arg6 : BitVec 32 := Scf.iv c0_i32_8 c1_i32_10 k0_t2
  let c1_i32_12 : BitVec 32 := 1#32
  let v17 : BitVec 32 := Scalar.muli arg6 c1_i32_12
  let v18 : BitVec 32 := Scalar.addi c0_i32_13 v17
  let c2048_i32 : BitVec 32 := 2048#32
  let v19 : BitVec 32 := Scalar.muli v18 c2048_i32
  let v20 : BitVec 32 := v19
  let v31 : Index := Scalar.indexCast v20
  ![0, v31.toNat]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x100352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x100352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S100000x32_S100352x32_03520_000 : S100000x32.Pads (![0, 0] : Fin 2 → Nat) ![352, 0] ![0, 0] S100352x32
  h_S_ : 0 < S_.numel
  transposes_S100352x32_S32x100352_1_0 : S100352x32.Transposes [1, 0] S32x100352
  pads_S1600000_S1601536_015360 : S1600000.Pads (![0] : Fin 1 → Nat) ![1536] ![0] S1601536
  inb_S32x100352_S32x100352_0_0 : ∀ a, (![0, 0] : Fin 2 → Nat) a + S32x100352.size a ≤ S32x100352.size a
  h_S32x100352 : 0 < S32x100352.numel
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  iota_S2048x1_d0_w32 : S2048x1.Iotas .tc 32 [0]
  broadcasts_S2048x1_S2048x2048 : S2048x1.Broadcasts S2048x2048
  broadcasts_S1x2048_S2048x2048 : S1x2048.Broadcasts S2048x2048
  natLt_1_32 : 1 < 32
  bitsLt_bf16_f32 : FTy.bits .bf16 < FTy.bits .f32
  slices_S32x100352_S32x100000_0_0 : S32x100352.Slices ![0, 0] S32x100000
  transposes_S32x100000_S100000x32_1_0 : S32x100000.Transposes [1, 0] S100000x32
  transposes_S32x32_S32x32_1_0 : S32x32.Transposes [1, 0] S32x32
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32_S32_0 : ∀ a, (![0] : Fin 1 → Nat) a + S32.size a ≤ S32.size a
  h_S32 : 0 < S32.numel
  shapeCasts_S32_S1x32 : S32.ShapeCasts S1x32
  broadcasts_S1x32_S1000x32 : S1x32.Broadcasts S1000x32
  dot_S32x2048_S2048x2048_S32x2048_1_0_0_1_n_n_wf : DotDims.WF S32x2048 S2048x2048 S32x2048 [1] [0] [0] [1] [] []
  dot_S32x2048_S2048x2048_S32x2048_1_1_0_0_n_n_wf : DotDims.WF S32x2048 S2048x2048 S32x2048 [1] [1] [0] [0] [] []
  dot_S1000x32_S32x32_S1000x32_1_0_0_1_n_n_wf : DotDims.WF S1000x32 S32x32 S1000x32 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S32x2048.size a ≤ S32x100352.size a
  k0_t2_ok : k0_t2_loop.OK
  k0_mult2_dvd : ∀ k0_t2 : Fin k0_t2_loop.trips, 2048 ∣ (k0_mult2 k0_t2).toNat
  k0_off2_inb : ∀ k0_t2 : Fin k0_t2_loop.trips, ∀ a, (k0_off2 k0_t2) a + S32x2048.size a ≤ S32x100352.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S1601536.size a
  hwx0_0 : ∀ i : grid0.Coords, EltTy.bits .i32 = 32 ∨ (Rect.block (s := S1601536) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S1601536.size a
  hwx0_1 : ∀ i : grid0.Coords, EltTy.bits .i32 = 32 ∨ (Rect.block (s := S1601536) S2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x100352.size a ≤ S32x100352.size a
  hwx0_2 : ∀ i : grid0.Coords, EltTy.bits .f32 = 32 ∨ (Rect.block (s := S32x100352) S32x100352.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x100352.size a ≤ S32x100352.size a
  hwx0_3 : ∀ i : grid0.Coords, EltTy.bits .f32 = 32 ∨ (Rect.block (s := S32x100352) S32x100352.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x32.size a ≤ S100000x32.size a
  hwx1_0 : ∀ i : grid1.Coords, EltTy.bits .f32 = 32 ∨ (Rect.block (s := S100000x32) S1000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x32.size a ≤ S100000x32.size a
  hwx1_3 : ∀ i : grid1.Coords, EltTy.bits .f32 = 32 ∨ (Rect.block (s := S100000x32) S1000x32.size (cc1_transform_3 i) (hinb1_3 i)).WholeWords (EltTy.packing .f32)

variable [Facts₀]

def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S32x2048_S2048x2048_S32x2048_1_1_0_0_n_n : DotDims S32x2048 S2048x2048 S32x2048 where
  lhsContracting := [1]
  rhsContracting := [1]
  lhsNonContracting := [0]
  rhsNonContracting := [0]
  lhsBatch := []
  rhsBatch := []
  wf := dot_S32x2048_S2048x2048_S32x2048_1_1_0_0_n_n_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf

abbrev win0_0 : Pipeline.Window sig grid0 :=
  Pipeline.Window.ofSpec (Memref.whole main_v2) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x100352.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x100352.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩

abbrev nBuf : Space → Nat
  | .hbm => 22
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x32, .f32⟩
  | .hbm, ⟨14, _⟩ => ⟨S_, .f32⟩
  | .hbm, ⟨15, _⟩ => ⟨S100000x32, .f32⟩
  | .hbm, ⟨16, _⟩ => ⟨S1600000x1, .i32⟩
  | .hbm, ⟨17, _⟩ => ⟨S100000x32, .f32⟩
  | .hbm, ⟨18, _⟩ => ⟨S100000x32, .f32⟩
  | .hbm, ⟨19, _⟩ => ⟨S1x32, .f32⟩
  | .hbm, ⟨20, _⟩ => ⟨S100000x32, .f32⟩
  | .hbm, ⟨21, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_1_0_0_n_n_wf : DotDims.WF S100000x32 S32x32 S100000x32 [1] [1] [0] [0] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_1_0_0_n_n : DotDims S100000x32 S32x32 S100000x32 where
  lhsContracting := [1]
  rhsContracting := [1]
  lhsNonContracting := [0]
  rhsNonContracting := [0]
  lhsBatch := []
  rhsBatch := []
  wf := dot_S100000x32_S32x32_S100000x32_1_1_0_0_n_n_wf

class Facts : Prop extends Facts₀ where

variable [Facts]
-- ==== Proof.Opened.lean ====
/- What each run of the gather/scatter kernel's body leaves behind, as explicit lists of stores.

   One pass of the first inner loop stores, over the whole message tile, the payload of the feature
   columns it loads at its own offset and of the tile's running contents; one pass of the second inner
   loop stores, at its own column offset of the accumulator, the payload of the running accumulator
   columns there. A whole body run leaves in the accumulator the stores of the second loop's passes
   (after a zero fill, at the first grid point), with the message tile it read being the first loop's
   passes written over a zero fill. -/
import proofs.«403150_j463856468209_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-- The whole message tile, as a rectangle. -/
abbrev rMsg : Rect S32x2048 := Rect.unit (s := S32x2048) ![0, 0] S32x2048.size inb_S32x2048_S32x2048_0_0
/-- The whole accumulator, as a rectangle. -/
abbrev rAcc : Rect S32x100352 := Rect.unit (s := S32x100352) ![0, 0] S32x100352.size inb_S32x100352_S32x100352_0_0
/-- The whole index vector, as a rectangle. -/
abbrev rIdx : Rect S2048 := Rect.unit (s := S2048) ![0] S2048.size inb_S2048_S2048_0
/-- The feature columns pass `k` of the first loop loads. -/
abbrev rFeat (k : Fin k0_t1_loop.trips) : Rect S32x100352 := Rect.unit (s := S32x100352) (k0_off1 k) S32x2048.size (k0_off1_inb k)
/-- The accumulator columns pass `k` of the second loop loads and stores. -/
abbrev rCol (k : Fin k0_t2_loop.trips) : Rect S32x100352 := Rect.unit (s := S32x100352) (k0_off2 k) S32x2048.size (k0_off2_inb k)

/-- One pass of the first loop: one store over the whole message tile. -/
theorem tripL1_eq (𝒱 : Variants) (c : Dev nD) (bd : Option 𝒱.V) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole) (v3 : Vec F S2048 .i32) (X_arg3 : BufTy.Contents (Elt F) arg3.view.ty) (k : Fin k0_t1_loop.trips) (f : BufTy.Contents (Elt F) arg5.view.ty) :
    tripL_k0_t1 (F := F) 𝒱 c bd i arg1 harg1 arg2 harg2 arg3 harg3 arg4 harg4 arg5 harg5 v3 X_arg3 k f
      = [⟨rMsg, k0_pay3 v3 k (View.readAt (Elt F) arg3.view (rFeat k).toLoadRect X_arg3)
          (View.readAt (Elt F) arg5.view rMsg.toLoadRect f)⟩] := by
  unfold tripL_k0_t1 trip_k0_t1
  rfl

/-- One pass of the second loop: one store at the pass's columns of the accumulator. -/
theorem tripL2_eq (𝒱 : Variants) (c : Dev nD) (bd : Option 𝒱.V) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole) (v6 : Vec F S2048 .i32) (v14 : Vec F S32x2048 .f32) (k : Fin k0_t2_loop.trips) (f : BufTy.Contents (Elt F) arg4.view.ty) :
    tripL_k0_t2 (F := F) 𝒱 c bd i arg1 harg1 arg2 harg2 arg3 harg3 arg4 harg4 arg5 harg5 v6 v14 k f
      = [⟨rCol k, k0_pay4 v6 v14 k (View.readAt (Elt F) arg4.view (rCol k).toLoadRect f)⟩] := by
  unfold tripL_k0_t2 trip_k0_t2
  rfl

/-- The message tile a body run reads after its first loop: the loop's passes written over a zero fill. -/
def msgOf (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole)
    (x0 : Vec F S2048 .i32) (x2 : Vec F S32x100352 .f32) : Vec F S32x2048 .f32 :=
  View.readAt (Elt F) arg5.view rMsg.toLoadRect
    (arg5.view.writes (Elt F) arg5.view.junk
      (pb_k0_t1 Variants.none c none i arg1 harg1 arg2 harg2 arg3 harg3 arg4 harg4 arg5 harg5
          (View.readAt (Elt F) arg1.view rIdx.toLoadRect (harg1.unread x0))
          (harg3.unread x2) (arg5.view.writes (Elt F) arg5.view.junk [⟨rMsg, k0_pay2⟩])
          (Scf.trips k0_t1_loop.lb k0_t1_loop.ub k0_t1_loop.st) ++
        [⟨rMsg, k0_pay2⟩]))

/-- A body run past the first grid point: the second loop's passes over the accumulator it finds. -/
theorem runB_eq (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole) (hc0 : ¬cond0_0 i)
    (x0 : Vec F S2048 .i32) (x1 : Vec F S2048 .i32) (x2 : Vec F S32x100352 .f32) (xo3 : Vec F S32x100352 .f32) :
    (kernelRun0_B c i arg1 harg1 arg2 harg2 arg3 harg3 arg4 harg4 arg5 harg5 hc0 x0 x1 x2 xo3).1
      = pb_k0_t2 Variants.none c none i arg1 harg1 arg2 harg2 arg3 harg3 arg4 harg4 arg5 harg5
          (View.readAt (Elt F) arg2.view rIdx.toLoadRect (harg2.unread x1))
          (msgOf c i arg1 harg1 arg2 harg2 arg3 harg3 arg4 harg4 arg5 harg5 x0 x2) (harg4.unread xo3)
          (Scf.trips k0_t2_loop.lb k0_t2_loop.ub k0_t2_loop.st) := by
  unfold kernelRun0_B
  rfl

/-- A body run at the first grid point: the same passes, over a zero fill of the accumulator. -/
theorem runA_eq (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole) (hc0 : cond0_0 i)
    (x0 : Vec F S2048 .i32) (x1 : Vec F S2048 .i32) (x2 : Vec F S32x100352 .f32) :
    (kernelRun0_A c i arg1 harg1 arg2 harg2 arg3 harg3 arg4 harg4 arg5 harg5 hc0 x0 x1 x2).1
      = pb_k0_t2 Variants.none c none i arg1 harg1 arg2 harg2 arg3 harg3 arg4 harg4 arg5 harg5
          (View.readAt (Elt F) arg2.view rIdx.toLoadRect (harg2.unread x1))
          (msgOf c i arg1 harg1 arg2 harg2 arg3 harg3 arg4 harg4 arg5 harg5 x0 x2)
          (arg4.view.writes (Elt F) arg4.view.junk [⟨rAcc, k0_pay1⟩])
          (Scf.trips k0_t2_loop.lb k0_t2_loop.ub k0_t2_loop.st) ++ [⟨rAcc, k0_pay1⟩] := by
  unfold kernelRun0_A
  rfl

end Cert.KernelIdeal.Hand

end
-- ==== Proof.Spec.lean ====
/- The mathematics both programs compute, over the extended reals.

   Each node's aggregate is the sum, over the edges that end at the node, of the feature row of the
   edge's source; the result is the aggregate times the transposed weight matrix plus the bias.
   The kernel reaches the same sums through one-hot products: `hot a b` is the 0/1 entry of a
   one-hot matrix, `msgAt` the row a one-hot product over the padded table's columns selects, and
   `padIdx` a padded index vector read at a flat position. -/
import Idealize.ShloMosaic.PureOps.Ideal
import Idealize.ShloMosaic.Lib.ValueIdx
import Mathlib.Algebra.BigOperators.Group.Finset.Basic
import Mathlib.Algebra.BigOperators.Fin

noncomputable section

open scoped BigOperators

namespace Cert.Spec

open Idealize.ShloMosaic Idealize.ShloMosaic.ValueIdx

abbrev SFeat : Shape := ⟨2, ![100000, 32]⟩
abbrev SEdge : Shape := ⟨1, ![1600000]⟩
abbrev SWt : Shape := ⟨2, ![32, 32]⟩
abbrev SBias : Shape := ⟨1, ![32]⟩
abbrev SEdgeP : Shape := ⟨1, ![1601536]⟩
abbrev STabP : Shape := ⟨2, ![32, 100352]⟩

/-- The feature row a source word names: the word read signed, kept inside the table. -/
def srcRow (s : BitVec 32) : Fin 100000 := ⟨min s.toInt.toNat 99999, by omega⟩

/-- Node `n`'s aggregate at feature `k`: the sum over the edges whose destination word, read signed, is `n`
    of the source's feature. -/
def agg (feat : FVec Ideal SFeat .f32) (src dst : IVec SEdge 32) (n : Fin 100000) (k : Fin 32) : EReal :=
  ∑ e ∈ Finset.univ.filter (fun e : Fin 1600000 => (dst (ix1 e)).toInt = (n.val : ℤ)),
    feat (ix2 (srcRow (src (ix1 e))) k)

/-- The result at node `n`, output feature `o`. -/
def outAt (feat : FVec Ideal SFeat .f32) (src dst : IVec SEdge 32) (W : FVec Ideal SWt .f32) (b : FVec Ideal SBias .f32)
    (n : Fin 100000) (o : Fin 32) : EReal :=
  (∑ k : Fin 32, agg feat src dst n k * W (ix2 o k)) + b (ix1 o)

/-- The result as an array. -/
def out (feat : FVec Ideal SFeat .f32) (src dst : IVec SEdge 32) (W : FVec Ideal SWt .f32) (b : FVec Ideal SBias .f32) :
    FVec Ideal SFeat .f32 := fun i => outAt feat src dst W b (i 0) (i 1)

/-- An entry of a one-hot matrix: 1 where the two words agree, 0 elsewhere. -/
def hot (a b : BitVec 32) : EReal := if a = b then 1 else 0

/-- What a one-hot product over the padded table's columns selects for the word `s`, at feature row `f`. -/
def msgAt (tbl : FVec Ideal STabP .f32) (s : BitVec 32) (f : Fin 32) : EReal :=
  ∑ n' : Fin 100352, tbl (ix2 f n') * hot (BitVec.ofNat 32 n'.val) s

/-- A padded index vector read at a flat position (0 past its end, which no position used reaches). -/
def padIdx (v : IVec SEdgeP 32) (j : ℕ) : BitVec 32 := if h : j < 1601536 then v (ix1 ⟨j, h⟩) else 0#32

/-- What one grid point adds to the accumulator at (f, n): over the 2048 edge slots of block `s`, the
    selected message where the destination word is column `n`. -/
def pointAdd (tbl : FVec Ideal STabP .f32) (srcp dstp : IVec SEdgeP 32) (s : ℕ) (f : Fin 32) (n : Fin 100352) : EReal :=
  ∑ e : Fin 2048, msgAt tbl (padIdx srcp (s * 2048 + e.val)) f * hot (BitVec.ofNat 32 n.val) (padIdx dstp (s * 2048 + e.val))

end Cert.Spec

end
-- ==== Proof.Pay.lean ====
import proofs.«403150_j463856468209_1_alg».proof.Proof.Gen.KernelIdeal.Skeleton
import proofs.«403150_j463856468209_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators
namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

/-! ## The two zero fills -/

/-- The zero fill of the accumulator. -/
theorem pay1_apply (j : S32x100352.Idx) : (k0_pay1 (F := Ideal)) j = 0 := by
  unfold k0_pay1
  exact Ideal.ofBits_zero_f32

/-- The zero fill of the message tile. -/
theorem pay2_apply (j : S32x2048.Idx) : (k0_pay2 (F := Ideal)) j = 0 := by
  unfold k0_pay2
  rw [shapeCast_self]
  exact Ideal.ofBits_zero_f32

/-! ## The one-hot matrix of a pass

Pass `k` of either loop compares the column numbers `k * 2048 + j` of node tile `k` with the 2048 index
words of the edge block: entry `(j, e)` is 1 where word `e` names column `k * 2048 + j`, else 0. -/

/-- The first column number of tile `k`, as the loop computes it from its counter: `k * 2048` (as a word). -/
theorem tile_word (k : ℕ) : Scalar.muli (Scalar.addi 0#32 (Scalar.muli (Scf.iv 0#32 1#32 k) 1#32)) 2048#32 = BitVec.ofNat 32 (k * 2048) := by
  unfold Scalar.muli Scalar.addi IntOp.muli IntOp.addi Scf.iv
  rw [BitVec.ofNat_mul]
  simp

/-- The comparison bit of two words, widened to 32 bits and converted to a float, is the one-hot entry:
    the bit 1 reads as the real 1, the bit 0 as 0. -/
theorem hot_bit (a b : BitVec 32) :
    (FloatOps.sitofp (F := Ideal) .f32 ((IntOp.cmpi .eq a b).setWidth 32) : EReal) = Spec.hot a b := by
  unfold Spec.hot IntOp.cmpi
  show (((((BitVec.ofBool (a == b)).setWidth 32).toInt : ℝ)) : EReal) = _
  by_cases h : a = b
  · subst h
    rw [if_pos rfl]
    simp
  · rw [if_neg h]
    have : (a == b) = false := by simpa using h
    rw [this]
    simp

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot matrix the two loops build from an index row `w` and the pass number `k`: the column of
    tile `k`'s column numbers against the row of index words, compared, widened and converted. -/
def onehot (w : IVec S2048 32) (k : ℕ) : FVec Ideal S2048x2048 .bf16 :=
  truncf .bf16 (sitofp .f32 (extui 32 (cmpi .eq
    (broadcastTo S2048x2048 (addi (broadcast S2048x1 (Scalar.muli (Scalar.addi 0#32 (Scalar.muli (Scf.iv 0#32 1#32 k) 1#32)) 2048#32))
      (iota .tc S2048x1 32 [0] iota_S2048x1_d0_w32)) broadcasts_S2048x1_S2048x2048)
    (broadcastTo S2048x2048 (shapeCast S1x2048 (shapeCast S2048 w shapeCasts_S2048_S2048) shapeCasts_S2048_S1x2048) broadcasts_S1x2048_S2048x2048))
    natLt_1_32)) bitsLt_bf16_f32

/-- Its entry at (j, e): 1 where word `e` is column `k * 2048 + j`, else 0. The sum of the two words
    `k * 2048` and `j` is the word of the sum. -/
theorem onehot_apply (w : IVec S2048 32) (k : ℕ) (j e : Fin 2048) :
    onehot w k (ix2 j e) = Spec.hot (BitVec.ofNat 32 (k * 2048 + j.val)) (w (ix1 e)) := by
  unfold onehot
  rw [truncf_apply, sitofp_apply, extui_apply]
  show FloatOps.sitofp (F := Ideal) .f32 ((IntOp.cmpi .eq (broadcastTo S2048x2048 _ broadcasts_S2048x1_S2048x2048 (ix2 j e)) (broadcastTo S2048x2048 _ broadcasts_S1x2048_S2048x2048 (ix2 j e))).setWidth 32) = _
  rw [broadcastTo_a1_ab_apply, broadcastTo_1b_ab_apply, shapeCast_a_1a_apply, shapeCast_self]
  show FloatOps.sitofp (F := Ideal) .f32 ((IntOp.cmpi .eq (IntOp.addi _ (iota .tc S2048x1 32 [0] iota_S2048x1_d0_w32 (ix2 j (0 : Fin 1)))) _).setWidth 32) = _
  rw [iota_single_apply, tile_word, hot_bit]
  show Spec.hot (BitVec.ofNat 32 (k * 2048) + BitVec.ofNat 32 j.val) _ = _
  rw [← BitVec.ofNat_add]

/-! ## The gather product (first loop): features [32, 2048] times one-hot [2048, 2048], contracting the
tile's column index (the left operand's axis 1 with the right operand's axis 0) -/
theorem lhs_gather_0 (i : S32x2048.Idx) (q : dot_S32x2048_S2048x2048_S32x2048_1_0_0_1_n_n.contr.Idx) :
    (dot_S32x2048_S2048x2048_S32x2048_1_0_0_1_n_n.lhsIdx i q 0).val = (i 0).val := by
  unfold DotDims.lhsIdx
  rw [dif_neg (show ¬(0 : Fin S32x2048.rank) ∈ dot_S32x2048_S2048x2048_S32x2048_1_0_0_1_n_n.lhsBatch by decide), dif_pos (show (0 : Fin S32x2048.rank) ∈ dot_S32x2048_S2048x2048_S32x2048_1_0_0_1_n_n.lhsNonContracting by decide)]
  rfl
theorem lhs_gather_1 (i : S32x2048.Idx) (q : dot_S32x2048_S2048x2048_S32x2048_1_0_0_1_n_n.contr.Idx) :
    (dot_S32x2048_S2048x2048_S32x2048_1_0_0_1_n_n.lhsIdx i q 1).val = (q ⟨0, by decide⟩).val :=
  dot_S32x2048_S2048x2048_S32x2048_1_0_0_1_n_n.lhsIdx_val_of_single rfl i q
theorem rhs_gather_0 (i : S32x2048.Idx) (q : dot_S32x2048_S2048x2048_S32x2048_1_0_0_1_n_n.contr.Idx) :
    (dot_S32x2048_S2048x2048_S32x2048_1_0_0_1_n_n.rhsIdx i q 0).val = (q ⟨0, by decide⟩).val :=
  dot_S32x2048_S2048x2048_S32x2048_1_0_0_1_n_n.rhsIdx_val_of_single rfl i q
theorem rhs_gather_1 (i : S32x2048.Idx) (q : dot_S32x2048_S2048x2048_S32x2048_1_0_0_1_n_n.contr.Idx) :
    (dot_S32x2048_S2048x2048_S32x2048_1_0_0_1_n_n.rhsIdx i q 1).val = (i 1).val := by
  unfold DotDims.rhsIdx
  rw [dif_neg (show ¬(1 : Fin S2048x2048.rank) ∈ dot_S32x2048_S2048x2048_S32x2048_1_0_0_1_n_n.rhsBatch by decide), dif_pos (show (1 : Fin S2048x2048.rank) ∈ dot_S32x2048_S2048x2048_S32x2048_1_0_0_1_n_n.rhsNonContracting by decide)]
  rfl

/-- The gather product at (f, e): the sum over the contracted column index. -/
theorem matmul_gather_apply (A : FVec Ideal S32x2048 .bf16) (B : FVec Ideal S2048x2048 .bf16) (f : Fin 32) (e : Fin 2048) :
    matmul (F := Ideal) dot_S32x2048_S2048x2048_S32x2048_1_0_0_1_n_n none A B (constant (F := Ideal) S32x2048 .f32 0x00000000#32) (ix2 f e)
      = ∑ j : Fin 2048, A (ix2 f j) * B (ix2 j e) := by
  refine (Ideal.matmul_constant_zero_apply dot_S32x2048_S2048x2048_S32x2048_1_0_0_1_n_n none A B (ix2 f e)).trans ?_
  rw [← Equiv.sum_comp (ValueIdx.contrEquiv1 dot_S32x2048_S2048x2048_S32x2048_1_0_0_1_n_n 2048 rfl rfl).symm]
  refine Finset.sum_congr rfl fun j _ => ?_
  have hk := ValueIdx.contrEquiv1_symm_val dot_S32x2048_S2048x2048_S32x2048_1_0_0_1_n_n 2048 rfl rfl j
  have el : dot_S32x2048_S2048x2048_S32x2048_1_0_0_1_n_n.lhsIdx (ix2 f e) ((ValueIdx.contrEquiv1 dot_S32x2048_S2048x2048_S32x2048_1_0_0_1_n_n 2048 rfl rfl).symm j) = ix2 f j := funext fun a => Fin.ext (by
    match a with
    | ⟨0, _⟩ => exact lhs_gather_0 _ _
    | ⟨1, _⟩ => exact (lhs_gather_1 _ _).trans hk)
  have er : dot_S32x2048_S2048x2048_S32x2048_1_0_0_1_n_n.rhsIdx (ix2 f e) ((ValueIdx.contrEquiv1 dot_S32x2048_S2048x2048_S32x2048_1_0_0_1_n_n 2048 rfl rfl).symm j) = ix2 j e := funext fun a => Fin.ext (by
    match a with
    | ⟨0, _⟩ => exact (rhs_gather_0 _ _).trans hk
    | ⟨1, _⟩ => exact rhs_gather_1 _ _)
  rw [el, er]

/-- One pass of the first loop at (f, e): the tile's running entry plus the one-hot product of the loaded
    feature columns with the source words. -/
theorem pay3_apply (v3 : Vec Ideal S2048 .i32) (k : Fin k0_t1_loop.trips) (v31 v34 : Vec Ideal S32x2048 .f32) (f : Fin 32) (e : Fin 2048) :
    k0_pay3 (F := Ideal) v3 k v31 v34 (ix2 f e)
      = v34 (ix2 f e) + ∑ j : Fin 2048, v31 (ix2 f j) * Spec.hot (BitVec.ofNat 32 (k.val * 2048 + j.val)) (v3 (ix1 e)) := by
  unfold k0_pay3
  rw [shapeCast_self, shapeCast_self]
  show v34 (ix2 f e) + matmul (F := Ideal) dot_S32x2048_S2048x2048_S32x2048_1_0_0_1_n_n none (truncf .bf16 v31 bitsLt_bf16_f32) (onehot v3 k.val) (constant (F := Ideal) S32x2048 .f32 0x00000000#32) (ix2 f e) = _
  rw [matmul_gather_apply]
  refine congrArg (v34 (ix2 f e) + ·) (Finset.sum_congr rfl fun j _ => ?_)
  rw [onehot_apply, truncf_apply]

/-! ## The scatter product (second loop): messages [32, 2048] times the one-hot matrix read transposed,
contracting the edge slot (the left operand's axis 1 with the right operand's axis 1) -/
theorem lhs_scatter_0 (i : S32x2048.Idx) (q : dot_S32x2048_S2048x2048_S32x2048_1_1_0_0_n_n.contr.Idx) :
    (dot_S32x2048_S2048x2048_S32x2048_1_1_0_0_n_n.lhsIdx i q 0).val = (i 0).val := by
  unfold DotDims.lhsIdx
  rw [dif_neg (show ¬(0 : Fin S32x2048.rank) ∈ dot_S32x2048_S2048x2048_S32x2048_1_1_0_0_n_n.lhsBatch by decide), dif_pos (show (0 : Fin S32x2048.rank) ∈ dot_S32x2048_S2048x2048_S32x2048_1_1_0_0_n_n.lhsNonContracting by decide)]
  rfl
theorem lhs_scatter_1 (i : S32x2048.Idx) (q : dot_S32x2048_S2048x2048_S32x2048_1_1_0_0_n_n.contr.Idx) :
    (dot_S32x2048_S2048x2048_S32x2048_1_1_0_0_n_n.lhsIdx i q 1).val = (q ⟨0, by decide⟩).val :=
  dot_S32x2048_S2048x2048_S32x2048_1_1_0_0_n_n.lhsIdx_val_of_single rfl i q
theorem rhs_scatter_0 (i : S32x2048.Idx) (q : dot_S32x2048_S2048x2048_S32x2048_1_1_0_0_n_n.contr.Idx) :
    (dot_S32x2048_S2048x2048_S32x2048_1_1_0_0_n_n.rhsIdx i q 0).val = (i 1).val := by
  unfold DotDims.rhsIdx
  rw [dif_neg (show ¬(0 : Fin S2048x2048.rank) ∈ dot_S32x2048_S2048x2048_S32x2048_1_1_0_0_n_n.rhsBatch by decide), dif_pos (show (0 : Fin S2048x2048.rank) ∈ dot_S32x2048_S2048x2048_S32x2048_1_1_0_0_n_n.rhsNonContracting by decide)]
  rfl
theorem rhs_scatter_1 (i : S32x2048.Idx) (q : dot_S32x2048_S2048x2048_S32x2048_1_1_0_0_n_n.contr.Idx) :
    (dot_S32x2048_S2048x2048_S32x2048_1_1_0_0_n_n.rhsIdx i q 1).val = (q ⟨0, by decide⟩).val :=
  dot_S32x2048_S2048x2048_S32x2048_1_1_0_0_n_n.rhsIdx_val_of_single rfl i q

/-- The scatter product at (f, j): the sum over the contracted edge slot, the right operand read transposed. -/
theorem matmul_scatter_apply (A : FVec Ideal S32x2048 .bf16) (B : FVec Ideal S2048x2048 .bf16) (f : Fin 32) (j : Fin 2048) :
    matmul (F := Ideal) dot_S32x2048_S2048x2048_S32x2048_1_1_0_0_n_n none A B (constant (F := Ideal) S32x2048 .f32 0x00000000#32) (ix2 f j)
      = ∑ e : Fin 2048, A (ix2 f e) * B (ix2 j e) := by
  refine (Ideal.matmul_constant_zero_apply dot_S32x2048_S2048x2048_S32x2048_1_1_0_0_n_n none A B (ix2 f j)).trans ?_
  rw [← Equiv.sum_comp (ValueIdx.contrEquiv1 dot_S32x2048_S2048x2048_S32x2048_1_1_0_0_n_n 2048 rfl rfl).symm]
  refine Finset.sum_congr rfl fun e _ => ?_
  have hk := ValueIdx.contrEquiv1_symm_val dot_S32x2048_S2048x2048_S32x2048_1_1_0_0_n_n 2048 rfl rfl e
  have el : dot_S32x2048_S2048x2048_S32x2048_1_1_0_0_n_n.lhsIdx (ix2 f j) ((ValueIdx.contrEquiv1 dot_S32x2048_S2048x2048_S32x2048_1_1_0_0_n_n 2048 rfl rfl).symm e) = ix2 f e := funext fun a => Fin.ext (by
    match a with
    | ⟨0, _⟩ => exact lhs_scatter_0 _ _
    | ⟨1, _⟩ => exact (lhs_scatter_1 _ _).trans hk)
  have er : dot_S32x2048_S2048x2048_S32x2048_1_1_0_0_n_n.rhsIdx (ix2 f j) ((ValueIdx.contrEquiv1 dot_S32x2048_S2048x2048_S32x2048_1_1_0_0_n_n 2048 rfl rfl).symm e) = ix2 j e := funext fun a => Fin.ext (by
    match a with
    | ⟨0, _⟩ => exact rhs_scatter_0 _ _
    | ⟨1, _⟩ => exact (rhs_scatter_1 _ _).trans hk)
  rw [el, er]

/-- One pass of the second loop at (f, j): the accumulator's running entry plus the one-hot product of the
    messages with the destination words. -/
theorem pay4_apply (v6 : Vec Ideal S2048 .i32) (v14 : Vec Ideal S32x2048 .f32) (k : Fin k0_t2_loop.trips) (v32 : Vec Ideal S32x2048 .f32) (f : Fin 32) (j : Fin 2048) :
    k0_pay4 (F := Ideal) v6 v14 k v32 (ix2 f j)
      = v32 (ix2 f j) + ∑ e : Fin 2048, v14 (ix2 f e) * Spec.hot (BitVec.ofNat 32 (k.val * 2048 + j.val)) (v6 (ix1 e)) := by
  unfold k0_pay4
  rw [shapeCast_self]
  show v32 (ix2 f j) + matmul (F := Ideal) dot_S32x2048_S2048x2048_S32x2048_1_1_0_0_n_n none (truncf .bf16 v14 bitsLt_bf16_f32) (onehot v6 k.val) (constant (F := Ideal) S32x2048 .f32 0x00000000#32) (ix2 f j) = _
  rw [matmul_scatter_apply]
  refine congrArg (v32 (ix2 f j) + ·) (Finset.sum_congr rfl fun e _ => ?_)
  rw [onehot_apply, truncf_apply]

/-! ## The projection: rows [1000, 32] times weights [32, 32] (already transposed by the host), contracting
the feature index, plus the bias row -/

theorem lhs_proj_0 (i : S1000x32.Idx) (q : dot_S1000x32_S32x32_S1000x32_1_0_0_1_n_n.contr.Idx) :
    (dot_S1000x32_S32x32_S1000x32_1_0_0_1_n_n.lhsIdx i q 0).val = (i 0).val := by
  unfold DotDims.lhsIdx
  rw [dif_neg (show ¬(0 : Fin S1000x32.rank) ∈ dot_S1000x32_S32x32_S1000x32_1_0_0_1_n_n.lhsBatch by decide), dif_pos (show (0 : Fin S1000x32.rank) ∈ dot_S1000x32_S32x32_S1000x32_1_0_0_1_n_n.lhsNonContracting by decide)]
  rfl
theorem lhs_proj_1 (i : S1000x32.Idx) (q : dot_S1000x32_S32x32_S1000x32_1_0_0_1_n_n.contr.Idx) :
    (dot_S1000x32_S32x32_S1000x32_1_0_0_1_n_n.lhsIdx i q 1).val = (q ⟨0, by decide⟩).val :=
  dot_S1000x32_S32x32_S1000x32_1_0_0_1_n_n.lhsIdx_val_of_single rfl i q
theorem rhs_proj_0 (i : S1000x32.Idx) (q : dot_S1000x32_S32x32_S1000x32_1_0_0_1_n_n.contr.Idx) :
    (dot_S1000x32_S32x32_S1000x32_1_0_0_1_n_n.rhsIdx i q 0).val = (q ⟨0, by decide⟩).val :=
  dot_S1000x32_S32x32_S1000x32_1_0_0_1_n_n.rhsIdx_val_of_single rfl i q
theorem rhs_proj_1 (i : S1000x32.Idx) (q : dot_S1000x32_S32x32_S1000x32_1_0_0_1_n_n.contr.Idx) :
    (dot_S1000x32_S32x32_S1000x32_1_0_0_1_n_n.rhsIdx i q 1).val = (i 1).val := by
  unfold DotDims.rhsIdx
  rw [dif_neg (show ¬(1 : Fin S32x32.rank) ∈ dot_S1000x32_S32x32_S1000x32_1_0_0_1_n_n.rhsBatch by decide), dif_pos (show (1 : Fin S32x32.rank) ∈ dot_S1000x32_S32x32_S1000x32_1_0_0_1_n_n.rhsNonContracting by decide)]
  rfl

/-- The projection product at (r, o): the sum over the contracted feature index. -/
theorem matmul_proj_apply (A : FVec Ideal S1000x32 .bf16) (B : FVec Ideal S32x32 .bf16) (r : Fin 1000) (o : Fin 32) :
    matmul (F := Ideal) dot_S1000x32_S32x32_S1000x32_1_0_0_1_n_n none A B (constant (F := Ideal) S1000x32 .f32 0x00000000#32) (ix2 r o)
      = ∑ k : Fin 32, A (ix2 r k) * B (ix2 k o) := by
  refine (Ideal.matmul_constant_zero_apply dot_S1000x32_S32x32_S1000x32_1_0_0_1_n_n none A B (ix2 r o)).trans ?_
  rw [← Equiv.sum_comp (ValueIdx.contrEquiv1 dot_S1000x32_S32x32_S1000x32_1_0_0_1_n_n 32 rfl rfl).symm]
  refine Finset.sum_congr rfl fun k _ => ?_
  have hk := ValueIdx.contrEquiv1_symm_val dot_S1000x32_S32x32_S1000x32_1_0_0_1_n_n 32 rfl rfl k
  have el : dot_S1000x32_S32x32_S1000x32_1_0_0_1_n_n.lhsIdx (ix2 r o) ((ValueIdx.contrEquiv1 dot_S1000x32_S32x32_S1000x32_1_0_0_1_n_n 32 rfl rfl).symm k) = ix2 r k := funext fun a => Fin.ext (by
    match a with
    | ⟨0, _⟩ => exact lhs_proj_0 _ _
    | ⟨1, _⟩ => exact (lhs_proj_1 _ _).trans hk)
  have er : dot_S1000x32_S32x32_S1000x32_1_0_0_1_n_n.rhsIdx (ix2 r o) ((ValueIdx.contrEquiv1 dot_S1000x32_S32x32_S1000x32_1_0_0_1_n_n 32 rfl rfl).symm k) = ix2 k o := funext fun a => Fin.ext (by
    match a with
    | ⟨0, _⟩ => exact (rhs_proj_0 _ _).trans hk
    | ⟨1, _⟩ => exact rhs_proj_1 _ _)
  rw [el, er]

/-- The projection body at (r, o): the row's product with the transposed weights plus the bias. -/
theorem k1_pay1_apply (v0 : Vec Ideal S1000x32 .f32) (v3 : Vec Ideal S32x32 .f32) (v7 : Vec Ideal S32 .f32) (r : Fin 1000) (o : Fin 32) :
    k1_pay1 (F := Ideal) v0 v3 v7 (ix2 r o) = (∑ k : Fin 32, v0 (ix2 r k) * v3 (ix2 k o)) + v7 (ix1 o) := by
  unfold k1_pay1
  rw [shapeCast_self, shapeCast_self]
  show matmul (F := Ideal) dot_S1000x32_S32x32_S1000x32_1_0_0_1_n_n none (truncf .bf16 v0 bitsLt_bf16_f32) (truncf .bf16 v3 bitsLt_bf16_f32) (constant (F := Ideal) S1000x32 .f32 0x00000000#32) (ix2 r o)
    + broadcastTo S1000x32 (shapeCast S1x32 v7 shapeCasts_S32_S1x32) broadcasts_S1x32_S1000x32 (ix2 r o) = _
  rw [matmul_proj_apply, broadcastTo_1b_ab_apply, shapeCast_a_1a_apply]
  rfl

end Cert.KernelIdeal.Hand

end
-- ==== Proof.Msg.lean ====
import proofs.«403150_j463856468209_1_alg».proof.Proof.Opened
import proofs.«403150_j463856468209_1_alg».proof.Proof.Pay
import Idealize.ShloMosaic.Lib.Writes
import Idealize.ShloMosaic.Lib.Pipeline.Frame
import Idealize.ShloMosaic.Lib.Pipeline.FrameBody
import Idealize.ShloMosaic.Lib.Pipeline.Value
import Mathlib.Algebra.BigOperators.Fin
import Mathlib.Algebra.BigOperators.Intervals

set_option maxRecDepth 16384

noncomputable section

open scoped BigOperators
namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

/-! ## Whole-shape rectangles

The message tile and the index vector are loaded and stored through the unit rectangle at zero offsets of
their own sizes: a load through it reads the contents, a store through it, last, leaves its payload. -/

theorem trips1 : k0_t1_loop.trips = 49 := by decide

theorem zero1 : (![0] : Fin S2048.rank → Nat) = fun _ => 0 := funext (Fin.forall_fin_one.mpr rfl)
theorem zero2 : (![0, 0] : Fin S32x2048.rank → Nat) = fun _ => 0 := funext (Fin.forall_fin_two.mpr ⟨rfl, rfl⟩)

/-- A store through the whole-shape rectangle at zero offsets, last in a list of stores: the buffer then
    reads the store's payload, whatever the earlier stores and the prior contents were. -/
theorem read_writes_cons_unit_zero {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

section

variable (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole)
  (x0 : Vec Ideal S2048 .i32) (x2 : Vec Ideal S32x100352 .f32)

/-- The index words the body loads are the index block's. -/
theorem idxLoad_eq : View.readAt (Elt Ideal) arg1.view rIdx.toLoadRect (harg1.unread x0) = x0 := by
  rw [View.readAt_eq_ld, harg1.read_unread]
  exact View.ld_unit_zero zero1 _ x0

/-- The message tile's contents after `k` passes of the first loop, run over the zero fill. -/
def tileAfter (k : ℕ) : Vec Ideal S32x2048 .f32 :=
  arg5.view.read (Elt Ideal) (arg5.view.writes (Elt Ideal) (arg5.view.writes (Elt Ideal) arg5.view.junk [⟨rMsg, k0_pay2 (F := Ideal)⟩])
    (pb_k0_t1 Variants.none c none i arg1 harg1 arg2 harg2 arg3 harg3 arg4 harg4 arg5 harg5
      (View.readAt (Elt Ideal) arg1.view rIdx.toLoadRect (harg1.unread x0)) (harg3.unread x2)
      (arg5.view.writes (Elt Ideal) arg5.view.junk [⟨rMsg, k0_pay2 (F := Ideal)⟩]) k))

/-- The tile the body reads after the loop is the tile after all the passes. -/
theorem msgOf_eq_tileAfter :
    msgOf (F := Ideal) c i arg1 harg1 arg2 harg2 arg3 harg3 arg4 harg4 arg5 harg5 x0 x2
      = tileAfter c i arg1 harg1 arg2 harg2 arg3 harg3 arg4 harg4 arg5 harg5 x0 x2 (Scf.trips k0_t1_loop.lb k0_t1_loop.ub k0_t1_loop.st) := by
  unfold msgOf tileAfter
  rw [View.writes_append, View.readAt_eq_ld]
  exact View.ld_unit_zero zero2 _ _

/-- Before any pass the tile is the zero fill. -/
theorem tileAfter_zero :
    tileAfter c i arg1 harg1 arg2 harg2 arg3 harg3 arg4 harg4 arg5 harg5 x0 x2 0 = k0_pay2 (F := Ideal) := by
  unfold tileAfter
  exact read_writes_cons_unit_zero arg5.view _ zero2 _ _ []

/-- Pass `k` stores over the whole tile the payload of the feature columns it loads and of the tile before it. -/
theorem tileAfter_succ (k : Fin k0_t1_loop.trips) :
    tileAfter c i arg1 harg1 arg2 harg2 arg3 harg3 arg4 harg4 arg5 harg5 x0 x2 (k.val + 1)
      = k0_pay3 (F := Ideal) x0 k (View.ld x2 (rFeat k))
          (tileAfter c i arg1 harg1 arg2 harg2 arg3 harg3 arg4 harg4 arg5 harg5 x0 x2 k.val) := by
  unfold tileAfter
  rw [pb_k0_t1_succ, tripL1_eq, List.singleton_append]
  refine (read_writes_cons_unit_zero arg5.view _ zero2 _ _ _).trans ?_
  rw [idxLoad_eq, View.readAt_eq_ld, View.readAt_eq_ld, harg3.read_unread, View.ld_unit_zero zero2]

end

/-! ## One pass at an entry -/

/-- What pass `k` loads of the table at (f, j): the table's column `k * 2048 + j` (the load's rectangle
    starts at column `2048 * k` and has unit strides). -/
theorem ld_feat_apply (x2 : Vec Ideal S32x100352 .f32) (k : Fin k0_t1_loop.trips) (f : Fin 32) (j : Fin 2048)
    (h : k.val * 2048 + j.val < 100352) :
    View.ld x2 (rFeat k) (ix2 f j) = x2 (ix2 f ⟨k.val * 2048 + j.val, h⟩) := by
  show x2 ((rFeat k).toLoadRect.idx (ix2 f j)) = _
  refine congrArg x2 (funext fun a => Fin.ext ?_)
  rw [LoadRect.idx_apply]
  show k0_off1 k a + 1 * _ = _
  rw [k0_off1_eq]
  match a with
  | ⟨0, _⟩ => show 0 + 1 * f.val = f.val; omega
  | ⟨1, _⟩ => show 2048 * k.val + 1 * j.val = k.val * 2048 + j.val; omega

/-! ## Regrouping a sum over blocks -/

/-- A sum over `S` blocks of `B` consecutive numbers is the sum over the first `S * B` numbers. -/
theorem sum_range_blocks {M : Type} [AddCommMonoid M] (g : ℕ → M) (B : ℕ) :
    ∀ S : ℕ, ∑ s ∈ Finset.range S, ∑ e ∈ Finset.range B, g (s * B + e) = ∑ j ∈ Finset.range (S * B), g j
  | 0 => by simp
  | S + 1 => by rw [Finset.sum_range_succ, sum_range_blocks g B S, Nat.succ_mul, Finset.sum_range_add]

/-- The term table column `j` adds to the message of the word `s` at feature row `f` (nothing past the table's end). -/
def colTerm (x2 : Vec Ideal S32x100352 .f32) (s : BitVec 32) (f : Fin 32) (j : ℕ) : EReal :=
  if h : j < 100352 then x2 (ix2 f ⟨j, h⟩) * Spec.hot (BitVec.ofNat 32 j) s else 0

/-- After `k` passes the tile holds, at (f, e), the one-hot product over the first `k * 2048` table columns: pass `k`
    adds the columns of tile `k` to what the passes before left. -/
theorem tileAfter_apply (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole)
    (x0 : Vec Ideal S2048 .i32) (x2 : Vec Ideal S32x100352 .f32) (f : Fin 32) (e : Fin 2048) (k : ℕ) (hk : k ≤ 49) :
    tileAfter c i arg1 harg1 arg2 harg2 arg3 harg3 arg4 harg4 arg5 harg5 x0 x2 k (ix2 f e)
      = ∑ j ∈ Finset.range (k * 2048), colTerm x2 (x0 (ix1 e)) f j := by
  induction k with
  | zero =>
    rw [tileAfter_zero, pay2_apply]
    simp
  | succ k ih =>
    have hk' : k < k0_t1_loop.trips := by rw [trips1]; omega
    refine (congrFun (tileAfter_succ c i arg1 harg1 arg2 harg2 arg3 harg3 arg4 harg4 arg5 harg5 x0 x2 ⟨k, hk'⟩) (ix2 f e)).trans ?_
    show k0_pay3 (F := Ideal) x0 ⟨k, hk'⟩ (View.ld x2 (rFeat ⟨k, hk'⟩))
      (tileAfter c i arg1 harg1 arg2 harg2 arg3 harg3 arg4 harg4 arg5 harg5 x0 x2 k) (ix2 f e) = _
    rw [pay3_apply, ih (by omega), show (k + 1) * 2048 = k * 2048 + 2048 by omega, Finset.sum_range_add,
      ← Fin.sum_univ_eq_sum_range (fun j => colTerm x2 (x0 (ix1 e)) f (k * 2048 + j)) 2048]
    refine congrArg (_ + ·) (Finset.sum_congr rfl fun j _ => ?_)
    have h : k * 2048 + j.val < 100352 := by have := j.isLt; omega
    show View.ld x2 (rFeat ⟨k, hk'⟩) (ix2 f j) * Spec.hot (BitVec.ofNat 32 (k * 2048 + j.val)) (x0 (ix1 e))
      = colTerm x2 (x0 (ix1 e)) f (k * 2048 + j.val)
    unfold colTerm
    rw [dif_pos h, ld_feat_apply x2 ⟨k, hk'⟩ f j h]

/-- The message tile a body run reads after its first loop, at (f, e): what the one-hot product over all 100352
    padded table columns selects for edge slot e's source word. The 49 passes cover the columns tile by tile. -/
theorem msgOf_apply (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole)
    (x0 : Vec Ideal S2048 .i32) (x2 : Vec Ideal S32x100352 .f32) (f : Fin 32) (e : Fin 2048) :
    msgOf (F := Ideal) c i arg1 harg1 arg2 harg2 arg3 harg3 arg4 harg4 arg5 harg5 x0 x2 (ix2 f e) = Spec.msgAt x2 (x0 (ix1 e)) f := by
  have ht : Scf.trips k0_t1_loop.lb k0_t1_loop.ub k0_t1_loop.st = 49 := trips1
  rw [msgOf_eq_tileAfter, ht, tileAfter_apply c i arg1 harg1 arg2 harg2 arg3 harg3 arg4 harg4 arg5 harg5 x0 x2 f e 49 le_rfl]
  unfold Spec.msgAt
  rw [show 49 * 2048 = 100352 from rfl, ← Fin.sum_univ_eq_sum_range (fun j => colTerm x2 (x0 (ix1 e)) f j) 100352]
  refine Finset.sum_congr rfl fun n' _ => ?_
  unfold colTerm
  rw [dif_pos n'.isLt]

end Cert.KernelIdeal.Hand

end
-- ==== Proof.Point.lean ====
import proofs.«403150_j463856468209_1_alg».proof.Proof.Opened
import proofs.«403150_j463856468209_1_alg».proof.Proof.Pay
import proofs.«403150_j463856468209_1_alg».proof.Proof.Msg
import Idealize.ShloMosaic.Lib.WritesUnit
import Idealize.ShloMosaic.Lib.Pipeline.Value
import Mathlib.Algebra.BigOperators.Group.Finset.Basic

set_option maxRecDepth 16384

noncomputable section

open scoped BigOperators
namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

/-- The second loop runs 49 passes. -/
theorem pt_trips2 : k0_t2_loop.trips = 49 := by decide

section Tiles

/-- Where pass `k`'s column tile puts its own index (f, j): row f, column 2048 k + j. -/
theorem pt_rCol_idx (k : Fin k0_t2_loop.trips) (f : Fin 32) (j : Fin 2048) (h : 2048 * k.val + j.val < 100352) :
    (rCol k).toLoadRect.idx (ix2 f j) = ix2 f (⟨2048 * k.val + j.val, h⟩ : Fin 100352) := by
  funext a
  match a with
  | ⟨0, _⟩ =>
    refine Fin.ext ?_
    show k0_off2 k 0 + 1 * f.val = f.val
    rw [k0_off2_eq]; show 0 + 1 * f.val = f.val; omega
  | ⟨1, _⟩ =>
    refine Fin.ext ?_
    show k0_off2 k 1 + 1 * j.val = 2048 * k.val + j.val
    rw [k0_off2_eq]; show 2048 * k.val + 1 * j.val = 2048 * k.val + j.val; omega

end Tiles

section Loop2

variable (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole)
  (v6 : Vec Ideal S2048 .i32) (v14 : Vec Ideal S32x2048 .f32) (G : BufTy.Contents (Elt Ideal) arg4.view.ty)

local notation "PB2" => pb_k0_t2 (F := Ideal) Variants.none c none i arg1 harg1 arg2 harg2 arg3 harg3 arg4 harg4 arg5 harg5 v6 v14 G

/-- One more pass of the second loop conses its one store onto the earlier passes' stores. -/
theorem pt_pb2_succ (k : ℕ) (hk : k < k0_t2_loop.trips) :
    PB2 (k + 1) = ⟨rCol ⟨k, hk⟩, k0_pay4 v6 v14 ⟨k, hk⟩
        (View.readAt (Elt Ideal) arg4.view (rCol ⟨k, hk⟩).toLoadRect (arg4.view.writes (Elt Ideal) G (PB2 k)))⟩ :: PB2 k := by
  have e := pb_k0_t2_succ (F := Ideal) Variants.none c none i arg1 harg1 arg2 harg2 arg3 harg3 arg4 harg4 arg5 harg5 v6 v14 G ⟨k, hk⟩
  rw [tripL2_eq] at e
  exact e

/-- Columns at or past pass `k`'s tile are untouched by the stores of the passes before `k`. -/
theorem pt_pb2_read_ge {sig' : RefSig} {κ' : Kind} {sp' : Space} (V' : View sig' κ' sp' S32x100352 .f32) (f' : V'.ty.Contents (Elt Ideal))
    (k : ℕ) (hk : k ≤ 49) (f : Fin 32) (n : Fin 100352) (hn : k * 2048 ≤ n.val) :
      V'.read (Elt Ideal) (V'.writes (Elt Ideal) f' (PB2 k)) (ix2 f n) = V'.read (Elt Ideal) f' (ix2 f n) := by
  induction k with
  | zero => rfl
  | succ k ih =>
    have hk' : k < k0_t2_loop.trips := by rw [pt_trips2]; omega
    rw [pt_pb2_succ c i arg1 harg1 arg2 harg2 arg3 harg3 arg4 harg4 arg5 harg5 v6 v14 G k hk']
    refine (View.read_writes_cons_unit_of_not_mem V' f' _ _ _ (ix2 f n) (k0_off2_eq ⟨k, hk'⟩) (1 : Fin 2) ?_).trans ?_
    · right
      show 2048 * k + 2048 ≤ n.val
      omega
    · exact ih (by omega) (by omega)

/-- Pass `k`'s load reads, at its own tile, what the loop found there. -/
theorem pt_pb2_load (k : ℕ) (hk : k < k0_t2_loop.trips) :
    View.readAt (Elt Ideal) arg4.view (rCol ⟨k, hk⟩).toLoadRect (arg4.view.writes (Elt Ideal) G (PB2 k))
      = View.ld (arg4.view.read (Elt Ideal) G) (rCol ⟨k, hk⟩) := by
  rw [View.readAt_eq_ld]
  funext x
  obtain ⟨f, j, rfl⟩ : ∃ (f : Fin 32) (j : Fin 2048), x = ix2 f j := ⟨x 0, x 1, eq_ix2 x⟩
  have hk49 : k < 49 := by rw [← pt_trips2]; exact hk
  have h : 2048 * k + j.val < 100352 := by omega
  show arg4.view.read (Elt Ideal) (arg4.view.writes (Elt Ideal) G (PB2 k)) ((rCol ⟨k, hk⟩).toLoadRect.idx (ix2 f j))
      = arg4.view.read (Elt Ideal) G ((rCol ⟨k, hk⟩).toLoadRect.idx (ix2 f j))
  rw [pt_rCol_idx ⟨k, hk⟩ f j h]
  exact pt_pb2_read_ge c i arg1 harg1 arg2 harg2 arg3 harg3 arg4 harg4 arg5 harg5 v6 v14 G arg4.view G k (by omega) f _
    (by show k * 2048 ≤ 2048 * k + j.val; omega)

/-- What the stores of the passes before `k` leave at a column below pass `k`'s tile: what the loop found there plus
    the one-hot product of the messages with the destination words at that column. -/
theorem pt_pb2_read_lt {sig' : RefSig} {κ' : Kind} {sp' : Space} (V' : View sig' κ' sp' S32x100352 .f32) (f' : V'.ty.Contents (Elt Ideal))
    (k : ℕ) (hk : k ≤ 49) (f : Fin 32) (n : Fin 100352) (hn : n.val < k * 2048) :
      V'.read (Elt Ideal) (V'.writes (Elt Ideal) f' (PB2 k)) (ix2 f n)
        = arg4.view.read (Elt Ideal) G (ix2 f n)
            + ∑ e : Fin 2048, v14 (ix2 f e) * Spec.hot (BitVec.ofNat 32 n.val) (v6 (ix1 e)) := by
  induction k with
  | zero => omega
  | succ k ih =>
    have hk' : k < k0_t2_loop.trips := by rw [pt_trips2]; omega
    rw [pt_pb2_succ c i arg1 harg1 arg2 harg2 arg3 harg3 arg4 harg4 arg5 harg5 v6 v14 G k hk',
      pt_pb2_load c i arg1 harg1 arg2 harg2 arg3 harg3 arg4 harg4 arg5 harg5 v6 v14 G k hk']
    by_cases hin : k * 2048 ≤ n.val
    · have hj : n.val - 2048 * k < 2048 := by omega
      refine (View.read_writes_cons_unit_of_mem V' f' _ _ _ (ix2 f n) (ix2 f (⟨n.val - 2048 * k, hj⟩ : Fin 2048))
        (k0_off2_eq ⟨k, hk'⟩) ?_).trans ?_
      · refine Fin.forall_fin_two.mpr ⟨?_, ?_⟩
        · show f.val = 0 + f.val; omega
        · show n.val = 2048 * k + (n.val - 2048 * k); omega
      · refine (pay4_apply v6 v14 ⟨k, hk'⟩ _ f ⟨n.val - 2048 * k, hj⟩).trans ?_
        have h : 2048 * k + (n.val - 2048 * k) < 100352 := by omega
        have e1 : (⟨2048 * k + (n.val - 2048 * k), h⟩ : Fin 100352) = n := Fin.ext (by show 2048 * k + (n.val - 2048 * k) = n.val; omega)
        have e2 : k * 2048 + (n.val - 2048 * k) = n.val := by omega
        show arg4.view.read (Elt Ideal) G ((rCol ⟨k, hk'⟩).toLoadRect.idx (ix2 f ⟨n.val - 2048 * k, hj⟩)) + _ = _
        rw [pt_rCol_idx ⟨k, hk'⟩ f ⟨n.val - 2048 * k, hj⟩ h, e1]
        show _ + ∑ e : Fin 2048, v14 (ix2 f e) * Spec.hot (BitVec.ofNat 32 (k * 2048 + (n.val - 2048 * k))) (v6 (ix1 e)) = _
        rw [e2]
    · refine (View.read_writes_cons_unit_of_not_mem V' f' _ _ _ (ix2 f n) (k0_off2_eq ⟨k, hk'⟩) (1 : Fin 2) ?_).trans ?_
      · left
        show n.val < 2048 * k
        omega
      · exact ih (by omega) (by omega)

end Loop2

/-- The second loop's trip count, spelled over the loop's three operands. -/
theorem pt_trips2' : Scf.trips k0_t2_loop.lb k0_t2_loop.ub k0_t2_loop.st = 49 := pt_trips2

/-- A load of a whole index vector out of a whole buffer held at contents that read `x` reads `x`. -/
theorem pt_idx_read (arg : Memref sig .tc .vmem S2048 .i32) (h : arg.IsWhole) (x : Vec Ideal S2048 .i32) :
    View.readAt (Elt Ideal) arg.view rIdx.toLoadRect (h.unread x) = x := by
  rw [View.readAt_eq_ld, h.read_unread]
  exact View.ld_unit_zero (S := S2048) (by funext a; match a with | ⟨0, _⟩ => rfl) inb_S2048_S2048_0 x

/-- The accumulator after its zero fill reads zero everywhere. -/
theorem pt_acc_zero {sig' : RefSig} {κ' : Kind} {sp' : Space} (V' : View sig' κ' sp' S32x100352 .f32) (f' : V'.ty.Contents (Elt Ideal))
    (f : Fin 32) (n : Fin 100352) :
    V'.read (Elt Ideal) (V'.writes (Elt Ideal) f' [⟨rAcc, k0_pay1 (F := Ideal)⟩]) (ix2 f n) = 0 := by
  refine (View.read_writes_cons_unit_of_mem V' f' _ _ _ (ix2 f n) (ix2 f n) rfl ?_).trans (pay1_apply _)
  refine Fin.forall_fin_two.mpr ⟨?_, ?_⟩
  · show f.val = 0 + f.val; omega
  · show n.val = 0 + n.val; omega

/-- What a body run past the first grid point leaves in the accumulator at (f, n): what it found there plus,
    over the block's 2048 edge slots, the message the source word selects where the destination word is column n. -/
theorem out0_B_3_apply (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole) (hc0 : ¬cond0_0 i)
    (x0 x1 : Vec Ideal S2048 .i32) (x2 xo3 : Vec Ideal S32x100352 .f32) (f : Fin 32) (n : Fin 100352) :
    out0_B_3 (F := Ideal) c i arg1 harg1 arg2 harg2 arg3 harg3 arg4 harg4 arg5 harg5 hc0 x0 x1 x2 xo3 (ix2 f n)
      = xo3 (ix2 f n) + ∑ e : Fin 2048, Spec.msgAt x2 (x0 (ix1 e)) f * Spec.hot (BitVec.ofNat 32 n.val) (x1 (ix1 e)) := by
  unfold out0_B_3
  rw [runB_eq, pt_trips2', pt_idx_read]
  refine (pt_pb2_read_lt c i arg1 harg1 arg2 harg2 arg3 harg3 arg4 harg4 arg5 harg5 x1 _ _ VO0_3 _ 49 le_rfl f n
    (by have := n.isLt; omega)).trans ?_
  rw [harg4.read_unread]
  refine congrArg (xo3 (ix2 f n) + ·) (Finset.sum_congr rfl fun e _ => ?_)
  rw [msgOf_apply]

/-- The same at the first grid point, over a zero fill. -/
theorem out0_A_3_apply (c : Dev nD) (i : grid0.Coords) (arg1 : Memref sig .tc .vmem S2048 .i32) (harg1 : arg1.IsWhole) (arg2 : Memref sig .tc .vmem S2048 .i32) (harg2 : arg2.IsWhole) (arg3 : Memref sig .tc .vmem S32x100352 .f32) (harg3 : arg3.IsWhole) (arg4 : Memref sig .tc .vmem S32x100352 .f32) (harg4 : arg4.IsWhole) (arg5 : Memref sig .tc .vmem S32x2048 .f32) (harg5 : arg5.IsWhole) (hc0 : cond0_0 i)
    (x0 x1 : Vec Ideal S2048 .i32) (x2 : Vec Ideal S32x100352 .f32) (f : Fin 32) (n : Fin 100352) :
    out0_A_3 (F := Ideal) c i arg1 harg1 arg2 harg2 arg3 harg3 arg4 harg4 arg5 harg5 hc0 x0 x1 x2 (ix2 f n)
      = 0 + ∑ e : Fin 2048, Spec.msgAt x2 (x0 (ix1 e)) f * Spec.hot (BitVec.ofNat 32 n.val) (x1 (ix1 e)) := by
  unfold out0_A_3
  rw [runA_eq, pt_trips2', pt_idx_read, View.writes_append]
  refine (pt_pb2_read_lt c i arg1 harg1 arg2 harg2 arg3 harg3 arg4 harg4 arg5 harg5 x1 _ _ VO0_3 _ 49 le_rfl f n
    (by have := n.isLt; omega)).trans ?_
  rw [pt_acc_zero]
  refine congrArg ((0 : EReal) + ·) (Finset.sum_congr rfl fun e _ => ?_)
  rw [msgOf_apply]

end Cert.KernelIdeal.Hand

end
-- ==== Proof.Arrays.lean ====
import proofs.«403150_j463856468209_1_alg».proof.Proof.Gen.KernelIdeal.Frame
import Idealize.ShloMosaic.Lib.ValueIdx
import Idealize.ShloMosaic.PureOps.Ideal

set_option maxRecDepth 16384

noncomputable section

open scoped BigOperators
namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

/-! Each buffer the proof reads, named once at its literal array type. -/

section
variable (m : (ℓ : Loc nD τ sig) → Buf (Elt Ideal) ℓ)

/-- The five arguments as launched. -/
abbrev argFeat (c : Dev nD) : FVec Ideal S100000x32 .f32 := m ((c.tc : Thread nD τ).loc main_arg0)
abbrev argSrc (c : Dev nD) : IVec S1600000 32 := m ((c.tc : Thread nD τ).loc main_arg1)
abbrev argDst (c : Dev nD) : IVec S1600000 32 := m ((c.tc : Thread nD τ).loc main_arg2)
abbrev argW (c : Dev nD) : FVec Ideal S32x32 .f32 := m ((c.tc : Thread nD τ).loc main_arg3)
abbrev argB (c : Dev nD) : FVec Ideal S32 .f32 := m ((c.tc : Thread nD τ).loc main_arg4)
end

section
variable (V : (c : Dev nD) → (b : Ref sig .tc) → Buf (Elt Ideal) ((c : Thread nD τ).loc b))

/-- What a region finds in the buffers it reads. -/
abbrev tblOf (c : Dev nD) : FVec Ideal S32x100352 .f32 := V c main_v1
abbrev srcpOf (c : Dev nD) : IVec S1601536 32 := V c main_v2
abbrev dstpOf (c : Dev nD) : IVec S1601536 32 := V c main_v3
abbrev hOf (c : Dev nD) : FVec Ideal S100000x32 .f32 := V c main_v6
abbrev wtOf (c : Dev nD) : FVec Ideal S32x32 .f32 := V c main_v7
abbrev biasOf (c : Dev nD) : FVec Ideal S32 .f32 := V c main_arg4
/-- The first region's result array after its run, and the second's. -/
abbrev acc0 (c : Dev nD) : FVec Ideal S32x100352 .f32 := (dat0 (F := Ideal) V c).arrAt 3 cfg0.N
abbrev res1 (c : Dev nD) : FVec Ideal S100000x32 .f32 := (dat1 (F := Ideal) V c).arrAt 3 cfg1.N
end

end Cert.KernelIdeal.Hand

end
-- ==== Proof.Grid.lean ====
import proofs.«403150_j463856468209_1_alg».proof.Proof.Point
import proofs.«403150_j463856468209_1_alg».proof.Proof.Arrays
import Idealize.ShloMosaic.Lib.Pipeline.Value

set_option maxRecDepth 16384

noncomputable section

open scoped BigOperators
namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The input blocks of grid point t, each at its literal type: the source words, the destination words and the table. -/
abbrev sblk (c : Dev nD) (t : Fin cfg0.N) : Vec Ideal S2048 .i32 := iblk0 (F := Ideal) V c 0 t
abbrev dblk (c : Dev nD) (t : Fin cfg0.N) : Vec Ideal S2048 .i32 := iblk0 (F := Ideal) V c 1 t
abbrev tblk (c : Dev nD) (t : Fin cfg0.N) : Vec Ideal S32x100352 .f32 := iblk0 (F := Ideal) V c 2 t

/-- The block index of the two edge windows at grid point t is t; that of the table window is (0, 0). -/
theorem index0_0 : ∀ t : Fin cfg0.N, win0_0.index t 0 = t.val :=
  (by decide +kernel : ∀ t : Fin grid0.N, win0_0.index t 0 = t.val)
theorem index0_1 : ∀ t : Fin cfg0.N, win0_1.index t 0 = t.val :=
  (by decide +kernel : ∀ t : Fin grid0.N, win0_1.index t 0 = t.val)
theorem index0_2 : ∀ t : Fin cfg0.N, win0_2.index t 0 = 0 ∧ win0_2.index t 1 = 0 :=
  (by decide +kernel : ∀ t : Fin grid0.N, win0_2.index t 0 = 0 ∧ win0_2.index t 1 = 0)

/-- Slot e of the source block of point t is the padded source vector at flat position t * 2048 + e. -/
theorem sblk_apply (c : Dev nD) (t : Fin cfg0.N) (e : Fin 2048) :
    sblk V c t (ix1 e) = Spec.padIdx (srcpOf V c) (t.val * 2048 + e.val) := by
  have hN : cfg0.N = 782 := N_0
  have hlt : t.val * 2048 + e.val < 1601536 := by have := t.isLt; have := e.isLt; omega
  unfold Spec.padIdx
  rw [dif_pos hlt]
  show (iblk0 (F := Ideal) V c 0 t : Vec Ideal S2048 .i32) (ix1 e) = (V c main_v2 : Vec Ideal S1601536 .i32) (ix1 ⟨_, hlt⟩)
  unfold iblk0
  rw [View.read_apply]
  show (V c main_v2 : Vec Ideal S1601536 .i32) _ = (V c main_v2 : Vec Ideal S1601536 .i32) _
  congr 1
  funext a
  apply Fin.ext
  match a with
  | ⟨0, _⟩ =>
    show win0_0.index t 0 * 2048 + 1 * e.val = t.val * 2048 + e.val
    rw [index0_0 t]; omega

theorem dblk_apply (c : Dev nD) (t : Fin cfg0.N) (e : Fin 2048) :
    dblk V c t (ix1 e) = Spec.padIdx (dstpOf V c) (t.val * 2048 + e.val) := by
  have hN : cfg0.N = 782 := N_0
  have hlt : t.val * 2048 + e.val < 1601536 := by have := t.isLt; have := e.isLt; omega
  unfold Spec.padIdx
  rw [dif_pos hlt]
  show (iblk0 (F := Ideal) V c 1 t : Vec Ideal S2048 .i32) (ix1 e) = (V c main_v3 : Vec Ideal S1601536 .i32) (ix1 ⟨_, hlt⟩)
  unfold iblk0
  rw [View.read_apply]
  show (V c main_v3 : Vec Ideal S1601536 .i32) _ = (V c main_v3 : Vec Ideal S1601536 .i32) _
  congr 1
  funext a
  apply Fin.ext
  match a with
  | ⟨0, _⟩ =>
    show win0_1.index t 0 * 2048 + 1 * e.val = t.val * 2048 + e.val
    rw [index0_1 t]; omega

/-- The table block of every point is the whole table. -/
theorem tblk_eq (c : Dev nD) (t : Fin cfg0.N) : tblk V c t = tblOf V c := by
  funext j
  show (iblk0 (F := Ideal) V c 2 t : Vec Ideal S32x100352 .f32) j = (V c main_v1 : Vec Ideal S32x100352 .f32) j
  unfold iblk0
  rw [View.read_apply]
  show (V c main_v1 : Vec Ideal S32x100352 .f32) _ = (V c main_v1 : Vec Ideal S32x100352 .f32) _
  congr 1
  funext a
  apply Fin.ext
  match a with
  | ⟨0, _⟩ =>
    show win0_2.index t 0 * 32 + 1 * (j 0).val = (j 0).val
    rw [(index0_2 t).1]; omega
  | ⟨1, _⟩ =>
    show win0_2.index t 1 * 100352 + 1 * (j 1).val = (j 1).val
    rw [(index0_2 t).2]; omega

/-- The accumulator after grid point t at (f, n): the contributions of the edge blocks 0 … t. -/
theorem outsAt0_apply (c : Dev nD) (t : ℕ) (ht : t < cfg0.N) (f : Fin 32) (n : Fin 100352) :
    (outsAt0 (F := Ideal) V c t ht : FVec Ideal S32x100352 .f32) (ix2 f n)
      = ∑ s ∈ Finset.range (t + 1), Spec.pointAdd (tblOf V c) (srcpOf V c) (dstpOf V c) s f n := by
  have hN : cfg0.N = 782 := N_0
  induction t with
  | zero =>
    have hA : (⟨0, ht⟩ : Fin cfg0.N).val % 782 = 0 := rfl
    rw [outsAt0_A V c ⟨0, ht⟩ hA]
    refine (out0_A_3_apply c (grid0.coords ⟨0, ht⟩) (ms0_0 ⟨0, ht⟩) (hs0_0 ⟨0, ht⟩) (ms0_1 ⟨0, ht⟩) (hs0_1 ⟨0, ht⟩)
      (ms0_2 ⟨0, ht⟩) (hs0_2 ⟨0, ht⟩) (ms0_3 ⟨0, ht⟩) (hs0_3 ⟨0, ht⟩) scM0_0 (Memref.isWhole_whole _)
      ((hcond0_0 ⟨0, ht⟩).mpr hA) (sblk V c ⟨0, ht⟩) (dblk V c ⟨0, ht⟩) (tblk V c ⟨0, ht⟩) f n).trans ?_
    rw [Finset.sum_range_one, zero_add, tblk_eq]
    unfold Spec.pointAdd
    refine Finset.sum_congr rfl fun e _ => ?_
    rw [sblk_apply, dblk_apply]
  | succ t ih =>
    have hB : ¬(⟨t + 1, ht⟩ : Fin cfg0.N).val % 782 = 0 := by dsimp only; omega
    rw [outsAt0_B V c ⟨t + 1, ht⟩ hB]
    dsimp only
    refine (out0_B_3_apply c (grid0.coords ⟨t + 1, ht⟩) (ms0_0 ⟨t + 1, ht⟩) (hs0_0 ⟨t + 1, ht⟩) (ms0_1 ⟨t + 1, ht⟩) (hs0_1 ⟨t + 1, ht⟩)
      (ms0_2 ⟨t + 1, ht⟩) (hs0_2 ⟨t + 1, ht⟩) (ms0_3 ⟨t + 1, ht⟩) (hs0_3 ⟨t + 1, ht⟩) scM0_0 (Memref.isWhole_whole _)
      (fun h => hB ((hcond0_0 ⟨t + 1, ht⟩).mp h)) (sblk V c ⟨t + 1, ht⟩) (dblk V c ⟨t + 1, ht⟩) (tblk V c ⟨t + 1, ht⟩)
      (outsAt0 (F := Ideal) V c t (Nat.lt_of_succ_lt ht)) f n).trans ?_
    rw [Finset.sum_range_succ _ (t + 1), ← ih (Nat.lt_of_succ_lt ht), tblk_eq]
    refine congrArg (HAdd.hAdd _) ?_
    unfold Spec.pointAdd
    refine Finset.sum_congr rfl fun e _ => ?_
    rw [sblk_apply, dblk_apply]

/-- The accumulator window's block index is (0, 0) at every grid point, and its block has the array's extents. -/
theorem index0_3 : ∀ t : Fin cfg0.N, win0_3.index t 0 = 0 ∧ win0_3.index t 1 = 0 :=
  (by decide +kernel : ∀ t : Fin grid0.N, win0_3.index t 0 = 0 ∧ win0_3.index t 1 = 0)
theorem xsize0_3 : ∀ t : Fin cfg0.N, win0_3.xsize (grid0.coords t) 0 = 32 ∧ win0_3.xsize (grid0.coords t) 1 = 100352 :=
  (by decide +kernel : ∀ t : Fin grid0.N, win0_3.xsize (grid0.coords t) 0 = 32 ∧ win0_3.xsize (grid0.coords t) 1 = 100352)

/-- The accumulator window's block is the whole array at every grid point, so what a write-back moves of
    staging contents `X` is `X` read through the block: both read `X` at the same index, the block's offsets
    being zero and its extents the array's. -/
theorem cut_eq_read (t : Fin cfg0.N) (X : Vec Ideal S32x100352 .f32) :
    (cfg0.win 3).cut (grid0.coords t) X = ((cfg0.win 3).blk t).view.read (Elt Ideal) X := by
  funext j
  rw [View.read_apply]
  show X _ = X _
  congr 1
  funext a
  apply Fin.ext
  match a with
  | ⟨0, h0⟩ =>
    show (j ⟨0, h0⟩).val = win0_3.index t 0 * 32 + 1 * (j ⟨0, h0⟩).val
    rw [(index0_3 t).1]; omega
  | ⟨1, h1⟩ =>
    show (j ⟨1, h1⟩).val = win0_3.index t 1 * 100352 + 1 * (j ⟨1, h1⟩).val
    rw [(index0_3 t).2]; omega

/-- The one write-back, at the last grid point, writes what that point left: its block is the whole array. -/
theorem flushed0_eq (c : Dev nD) (h781 : 781 < cfg0.N) (t : Fin cfg0.N) (hf : (cfg0.win 3).flush t = true) :
    (dat0 (F := Ideal) V c).flushed 3 t
      = ((cfg0.win 3).blk t).view.read (Elt Ideal) (outsAt0 (F := Ideal) V c 781 h781) := by
  have hN : cfg0.N = 782 := N_0
  have h1 : t.val = 781 := by have := (flush0_3 t).mp hf; have := t.isLt; omega
  obtain rfl : t = ⟨781, h781⟩ := Fin.ext h1
  show (cfg0.win 3).cut (grid0.coords ⟨781, h781⟩) ((dat0 (F := Ideal) V c).after 3 ⟨781, h781⟩) = _
  rw [after0_3]
  exact cut_eq_read ⟨781, h781⟩ _

/-- Every index of the accumulator array lies in the block the last grid point writes back. -/
theorem cover0 (h781 : 781 < cfg0.N) (i : ((cfg0.win 3).arr.view.loc ((0 : Dev nD).tc : Thread nD τ)).2.ty.Idx) :
    i ∈ ((cfg0.win 3).blk ⟨781, h781⟩).view.set := by
  show i ∈ ((View.whole main_v4).slice (win0_3.rect ⟨781, h781⟩)).set
  rw [View.set_slice_whole, Rect.mem_set_unit]
  intro a
  have b0 : (i 0 : Nat) < 32 := (i 0).isLt
  have b1 : (i 1 : Nat) < 100352 := (i 1).isLt
  match a with
  | ⟨0, _⟩ =>
    show win0_3.index ⟨781, h781⟩ 0 * 32 ≤ (i 0 : Nat) ∧ (i 0 : Nat) < win0_3.index ⟨781, h781⟩ 0 * 32 + win0_3.xsize (grid0.coords ⟨781, h781⟩) 0
    rw [(index0_3 _).1, (xsize0_3 _).1]; omega
  | ⟨1, _⟩ =>
    show win0_3.index ⟨781, h781⟩ 1 * 100352 ≤ (i 1 : Nat) ∧ (i 1 : Nat) < win0_3.index ⟨781, h781⟩ 1 * 100352 + win0_3.xsize (grid0.coords ⟨781, h781⟩) 1
    rw [(index0_3 _).2, (xsize0_3 _).2]; omega

/-- So the region's result array ends holding what the last grid point left in the accumulator. -/
theorem final0 (c : Dev nD) (h781 : 781 < cfg0.N) : acc0 V c = outsAt0 (F := Ideal) V c 781 h781 :=
  (dat0 (F := Ideal) V c).arrAt_eq_of_cover 3 (outsAt0 (F := Ideal) V c 781 h781) (flushed0_eq V c h781) fun i =>
    ⟨⟨781, h781⟩, (flush0_3 _).mpr rfl, cover0 h781 i⟩

/-- The first region's result array at (f, n): the contributions of all 782 edge blocks. -/
theorem arr0_apply (c : Dev nD) (f : Fin 32) (n : Fin 100352) :
    acc0 V c (ix2 f n) = ∑ s ∈ Finset.range 782, Spec.pointAdd (tblOf V c) (srcpOf V c) (dstpOf V c) s f n := by
  have hN : cfg0.N = 782 := N_0
  have h781 : 781 < cfg0.N := by omega
  rw [final0 V c h781]
  exact outsAt0_apply V c 781 h781 f n

end Cert.KernelIdeal.Hand

end
-- ==== Proof.Region1.lean ====
import proofs.«403150_j463856468209_1_alg».proof.Proof.Arrays
import proofs.«403150_j463856468209_1_alg».proof.Proof.Pay

set_option maxRecDepth 16384

noncomputable section

open scoped BigOperators
namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

variable (V : (c : Dev nD) → (b : Ref sig .tc) → Buf (Elt Ideal) ((c : Thread nD τ).loc b))

/-- The zero offsets of a rank-2 whole-buffer rectangle, as the constant function. -/
theorem zeroOff2 : (![0, 0] : Fin 2 → Nat) = fun _ => 0 := funext fun a => by fin_cases a <;> rfl
/-- The zero offset of a rank-1 whole-buffer rectangle, as the constant function. -/
theorem zeroOff1 : (![0] : Fin 1 → Nat) = fun _ => 0 := funext fun a => by fin_cases a <;> rfl

/-- The projection as one function of the arrays the region reads: entry (r, o) is row r of the aggregate times
    column o of the transposed weights, plus the bias at o. -/
def projOf (c : Dev nD) : S100000x32.Idx → EReal := fun i =>
  (∑ k : Fin 32, hOf V c (ix2 (i 0) k) * wtOf V c (ix2 k (i 1))) + biasOf V c (ix1 (i 1))

/-- The printed index maps over the grid: the aggregate's and the result's row block is the point's number, every other
    block index is zero. -/
theorem projIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Block t of the aggregate is its rows 1000 t … 1000 t + 999. -/
theorem aggBlock (c : Dev nD) (t : Fin cfg1.N) (r : Fin 1000) (k : Fin 32) (R : Fin 100000)
    (hR : R.val = t.val * 1000 + r.val) :
    (iblk1 (F := Ideal) V c 0 t : Vec Ideal S1000x32 .f32) (ix2 r k) = hOf V c (ix2 R k) := by
  obtain ⟨e0, e1, -⟩ := projIndex t
  unfold iblk1
  rw [View.read_apply]
  show V c main_v6 _ = V c main_v6 _
  congr 1
  funext a
  apply Fin.ext
  match a with
  | ⟨0, _⟩ => show win1_0.index t (0 : Fin 2) * 1000 + 1 * r.val = R.val; rw [e0, hR]; omega
  | ⟨1, _⟩ => show win1_0.index t (1 : Fin 2) * 32 + 1 * k.val = k.val; rw [e1]; omega

/-- The weights' one block is the whole array. -/
theorem wtBlock (c : Dev nD) (t : Fin cfg1.N) (k o o' : Fin 32) (ho : o'.val = o.val) :
    (iblk1 (F := Ideal) V c 1 t : Vec Ideal S32x32 .f32) (ix2 k o) = wtOf V c (ix2 k o') := by
  obtain ⟨-, -, e0, e1, -⟩ := projIndex t
  unfold iblk1
  rw [View.read_apply]
  show V c main_v7 _ = V c main_v7 _
  congr 1
  funext a
  apply Fin.ext
  match a with
  | ⟨0, _⟩ => show win1_1.index t (0 : Fin 2) * 32 + 1 * k.val = k.val; rw [e0]; omega
  | ⟨1, _⟩ => show win1_1.index t (1 : Fin 2) * 32 + 1 * o.val = o'.val; rw [e1, ho]; omega

/-- The bias's one block is the whole array. -/
theorem biasBlock (c : Dev nD) (t : Fin cfg1.N) (o o' : Fin 32) (ho : o'.val = o.val) :
    (iblk1 (F := Ideal) V c 2 t : Vec Ideal S32 .f32) (ix1 o) = biasOf V c (ix1 o') := by
  obtain ⟨-, -, -, -, e0, -⟩ := projIndex t
  unfold iblk1
  rw [View.read_apply]
  show V c main_arg4 _ = V c main_arg4 _
  congr 1
  funext a
  apply Fin.ext
  match a with
  | ⟨0, _⟩ => show win1_2.index t (0 : Fin 1) * 32 + 1 * o.val = o'.val; rw [e0, ho]; omega

/-- What point t writes back is block t of the projection. -/
theorem flushedProj (c : Dev nD) (t : Fin cfg1.N) :
    (dat1 (F := Ideal) V c).flushed 3 t = ((cfg1.win 3).blk t).view.read (Elt Ideal) (projOf V c) := by
  show (cfg1.win 3).cut (grid1.coords t) ((dat1 (F := Ideal) V c).after 3 t) = _
  rw [after1_3]
  unfold out1_3
  rw [View.canon_unit_zero zeroOff2]
  simp only [View.ld_unit_zero (S := S1000x32) zeroOff2, View.ld_unit_zero (S := S32x32) zeroOff2, View.ld_unit_zero (S := S32) zeroOff1]
  funext j
  obtain ⟨r, o, rfl⟩ : ∃ (r : Fin 1000) (o : Fin 32), j = ix2 r o := ⟨j 0, j 1, eq_ix2 j⟩
  obtain ⟨-, -, -, -, -, e0, e1⟩ := projIndex t
  rw [View.read_apply]
  show k1_pay1 (F := Ideal) (iblk1 V c 0 t) (iblk1 V c 1 t) (iblk1 V c 2 t) (ix2 r o) = projOf V c _
  rw [k1_pay1_apply]
  unfold projOf
  have hr : ((((cfg1.win 3).blk t).view.emb (ix2 r o) 0 : Fin 100000) : Nat) = t.val * 1000 + r.val := by
    show win1_3.index t (0 : Fin 2) * 1000 + 1 * r.val = _; rw [e0]; omega
  have ho : ((((cfg1.win 3).blk t).view.emb (ix2 r o) 1 : Fin 32) : Nat) = o.val := by
    show win1_3.index t (1 : Fin 2) * 32 + 1 * o.val = _; rw [e1]; omega
  congr 1
  · refine Finset.sum_congr rfl fun k _ => ?_
    exact congrArg₂ (· * ·) (aggBlock V c t r k _ hr) (wtBlock V c t k o _ ho)
  · exact biasBlock V c t o _ ho

/-- An index of the result is in point t's block iff each coordinate is in the block's range on its axis. -/
theorem memProjBlock (t : Fin cfg1.N) (i : S100000x32.Idx) :
    i ∈ ((cfg1.win 3).blk t).view.set ↔ ∀ a : Fin 2, win1_3.index t a * S1000x32.size a ≤ (i a).val ∧ (i a).val < win1_3.index t a * S1000x32.size a + S1000x32.size a := by
  show i ∈ ((View.whole main_v8).slice (win1_3.rect t)).set ↔ _
  rw [View.set_slice_whole, Rect.mem_set_unit]
  exact Iff.rfl

/-- Every index of the result is in the block of the point numbered by its row's thousand. -/
theorem coverProj (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 100 := by decide
  let t : Fin cfg1.N := ⟨(i 0).val / 1000, by rw [hN]; omega⟩
  obtain ⟨-, -, -, -, -, e0, e1⟩ := projIndex t
  refine ⟨t, flush1_3 t, ?_⟩
  rw [memProjBlock]
  intro a
  match a with
  | ⟨0, _⟩ =>
    show win1_3.index t (0 : Fin 2) * 1000 ≤ (i 0).val ∧ (i 0).val < win1_3.index t (0 : Fin 2) * 1000 + 1000
    rw [e0]; show (i 0).val / 1000 * 1000 ≤ (i 0).val ∧ (i 0).val < (i 0).val / 1000 * 1000 + 1000; omega
  | ⟨1, _⟩ =>
    show win1_3.index t (1 : Fin 2) * 32 ≤ (i 1).val ∧ (i 1).val < win1_3.index t (1 : Fin 2) * 32 + 32
    rw [e1]; omega

/-- The result array after the region's run is the projection. -/
theorem res1_eq (c : Dev nD) : res1 V c = projOf V c :=
  (dat1 (F := Ideal) V c).arrAt_eq_of_cover 3 (projOf V c) (fun t _ => flushedProj V c t) coverProj

/-- The projection's result array at (r, o): row r of the aggregate times the transposed weights, plus the bias. -/
theorem arr1_apply (c : Dev nD) (r : Fin 100000) (o : Fin 32) :
    res1 V c (ix2 r o) = (∑ k : Fin 32, hOf V c (ix2 r k) * wtOf V c (ix2 k o)) + biasOf V c (ix1 o) := by
  rw [res1_eq]
  rfl

end Cert.KernelIdeal.Hand

end
-- ==== Proof.Host.lean ====
import proofs.«403150_j463856468209_1_alg».proof.Proof.Arrays
import proofs.«403150_j463856468209_1_alg».proof.Proof.Spec
import Idealize.ShloMosaic.Lib.StableHlo.Run
import Idealize.ShloMosaic.Lib.Pipeline.Value
import Idealize.ShloMosaic.Lib.ValueIdx
import Idealize.ShloMosaic.Lib.KernelVsHost

set_option maxRecDepth 16384

noncomputable section

open scoped BigOperators
namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

/-! ## Padding at the high end, read at an index -/

/-- A vector of words padded at its high end, read at an index: the operand inside, the padding word past its end. -/
theorem pad_hi_apply {n p N : Nat} (x : (⟨1, ![n]⟩ : Shape).Idx → BitVec 32) (w : BitVec 32)
    (h : (⟨1, ![n]⟩ : Shape).Pads ![0] ![p] ![0] ⟨1, ![N]⟩) (hu : 0 < S_.numel) (j : Fin N) :
    pad ⟨1, ![N]⟩ ![0] ![p] ![0] x (constantI S_ 32 w) h hu (ix1 j)
      = if hj : j.val < n then x (ix1 ⟨j.val, hj⟩) else w := by
  by_cases hj : j.val < n
  · rw [dif_pos hj]
    refine pad_apply_of_inside _ _ _ _ _ _ _ _ (ix1 ⟨j.val, hj⟩) fun a => ?_
    match a with
    | ⟨0, _⟩ => show j.val = 0 + j.val * (0 + 1); omega
  · rw [dif_neg hj]
    refine (pad_apply_of_not_inside _ _ _ _ _ _ _ (ix1 j) ⟨0, Nat.one_pos⟩ ?_).trans rfl
    show ¬(0 ≤ j.val ∧ (j.val - 0) % (0 + 1) = 0 ∧ (j.val - 0) / (0 + 1) < n)
    intro h3
    have h4 : (j.val - 0) / (0 + 1) < n := h3.2.2
    rw [Nat.sub_zero, Nat.zero_add, Nat.div_one] at h4
    exact hj h4

/-- A matrix padded with rows at its high end, read at an index: the operand inside, the padding value past its
    last row. -/
theorem pad_rows_apply {n p N d : Nat} (x : (⟨2, ![n, d]⟩ : Shape).Idx → EReal) (v : S_.Idx → EReal)
    (h : (⟨2, ![n, d]⟩ : Shape).Pads ![0, 0] ![p, 0] ![0, 0] ⟨2, ![N, d]⟩) (hu : 0 < S_.numel) (r : Fin N) (f : Fin d) :
    pad ⟨2, ![N, d]⟩ ![0, 0] ![p, 0] ![0, 0] x v h hu (ix2 r f)
      = if hr : r.val < n then x (ix2 ⟨r.val, hr⟩ f) else v (Shape.Idx.first hu) := by
  by_cases hr : r.val < n
  · rw [dif_pos hr]
    refine pad_apply_of_inside _ _ _ _ _ _ _ _ (ix2 ⟨r.val, hr⟩ f) fun a => ?_
    match a with
    | ⟨0, _⟩ => show r.val = 0 + r.val * (0 + 1); omega
    | ⟨1, _⟩ => show f.val = 0 + f.val * (0 + 1); omega
  · rw [dif_neg hr]
    refine pad_apply_of_not_inside _ _ _ _ _ _ _ (ix2 r f) ⟨0, Nat.zero_lt_two⟩ ?_
    show ¬(0 ≤ r.val ∧ (r.val - 0) % (0 + 1) = 0 ∧ (r.val - 0) / (0 + 1) < n)
    intro h3
    have h4 : (r.val - 0) / (0 + 1) < n := h3.2.2
    rw [Nat.sub_zero, Nat.zero_add, Nat.div_one] at h4
    exact hr h4

variable (m : (ℓ : Loc nD τ sig) → Buf (Elt Ideal) ℓ) (ρ : Dev nD → PrngReg)

/-! ## Each buffer a region reads, as one term over the arguments -/

/-- A buffer that no operation of a host stretch writes is as it was before the stretch. -/
local macro "unwritten" : tactic => `(tactic|
  exact StableHlo.after_of_forall_not_mem _ _ (List.forall_iff_forall_mem.mp (by
    simp only [hostOps0, hostOps0_1, hostOps0_2, hostOps0_3, hostOps0_4, hostOps0_5, hostOps1, List.flatten_cons,
      List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))))

/-- The table: the features padded with the zero word's float past the last node, then transposed. -/
theorem V6_v1_eq (c : Dev nD) :
    tblOf (V6 m ρ) c = transpose S32x100352 [1, 0]
      (pad S100352x32 ![0, 0] ![352, 0] ![0, 0] (argFeat m c) (sitofp (F := Ideal) .f32 (constantI S_ 32 0#32))
        pads_S100000x32_S100352x32_03520_000 h_S_) transposes_S100352x32_S32x100352_1_0 := by
  dsimp only [tblOf, V6, W6, W5, W4, W3, W2, W1, W0]
  simp only [hostOps0, hostOps0_1, hostOps0_2, hostOps0_3, hostOps0_4, hostOps0_5]
  after_results
  rfl

/-- The source words padded with the word 0. -/
theorem V6_v2_eq (c : Dev nD) :
    srcpOf (V6 m ρ) c = pad S1601536 ![0] ![1536] ![0] (argSrc m c) (constantI S_ 32 0#32)
      pads_S1600000_S1601536_015360 h_S_ := by
  dsimp only [srcpOf, V6, W6, W5, W4, W3, W2, W1, W0]
  simp only [hostOps0, hostOps0_1, hostOps0_2, hostOps0_3, hostOps0_4, hostOps0_5]
  after_results
  rfl

/-- The destination words padded with the word 100351. -/
theorem V6_v3_eq (c : Dev nD) :
    dstpOf (V6 m ρ) c = pad S1601536 ![0] ![1536] ![0] (argDst m c) (constantI S_ 32 100351#32)
      pads_S1600000_S1601536_015360 h_S_ := by
  dsimp only [dstpOf, V6, W6, W5, W4, W3, W2, W1, W0]
  simp only [hostOps0, hostOps0_1, hostOps0_2, hostOps0_3, hostOps0_4, hostOps0_5]
  after_results
  rfl

/-- Neither region nor any host operation writes the weights argument: at the first region's exit it is as launched. -/
theorem W7_arg3 (c : Dev nD) : W7 m ρ c (Proc.devRef .tc main_arg3) = m ((c : Thread nD τ).loc main_arg3) :=
  calc W7 m ρ c (Proc.devRef .tc main_arg3)
    _ = W8 m ρ c (Proc.devRef .tc main_arg3) := Eq.symm (by unwritten)
    _ = W9 m ρ c (Proc.devRef .tc main_arg3) := (W9_of_ne m ρ c main_arg3 (by decide)).symm
    _ = m ((c : Thread nD τ).loc main_arg3) := W9_main_arg3 m ρ c

/-- The aggregate the projection reads: the first region's result cut to the nodes, then transposed. -/
theorem V8_v6_eq (c : Dev nD) :
    hOf (V8 m ρ) c = transpose S100000x32 [1, 0]
      (extractStridedSlice S32x100000 ![0, 0] (acc0 (V6 m ρ) c) slices_S32x100352_S32x100000_0_0)
      transposes_S32x100000_S100000x32_1_0 := by
  show StableHlo.after hostOps1 (W7 m ρ c) (Proc.devRef .tc main_v6) = _
  simp only [hostOps1]
  after_results
  rw [show W7 m ρ c (Proc.devRef .tc main_v4) = (dat0 (V6 m ρ) c).arrAt 3 cfg0.N from W7_arr m ρ c 3]

/-- The weights the projection reads: the argument transposed. -/
theorem V8_v7_eq (c : Dev nD) :
    wtOf (V8 m ρ) c = transpose S32x32 [1, 0] (argW m c) transposes_S32x32_S32x32_1_0 := by
  show StableHlo.after hostOps1 (W7 m ρ c) (Proc.devRef .tc main_v7) = _
  simp only [hostOps1]
  after_results
  rw [W7_arg3]

/-! ## The same, read at an index -/

/-- The table the first region reads: the features transposed, zero past the last node. -/
theorem V6_tbl (c : Dev nD) (f : Fin 32) (n' : Fin 100352) :
    tblOf (V6 m ρ) c (ix2 f n') = if h : n'.val < 100000 then argFeat m c (ix2 ⟨n'.val, h⟩ f) else 0 := by
  rw [V6_v1_eq]
  -- entry (f, n') of the transpose is entry (n', f) of the padded features
  refine (transpose_apply _ _ _ (ix2 f n') (ix2 n' f) fun b => ?_).trans ?_
  · match b with
    | ⟨0, _⟩ => rfl
    | ⟨1, _⟩ => rfl
  · refine (pad_rows_apply (argFeat m c) _ _ _ n' f).trans ?_
    by_cases h : n'.val < 100000
    · rw [dif_pos h, dif_pos h]
    · -- past the last node: the zero word read as a signed integer is the float 0
      rw [dif_neg h, dif_neg h]
      exact sitofp_zero

/-- The source words the first region reads: the argument, padded with the word 0. -/
theorem V6_src (c : Dev nD) (j : Fin 1601536) :
    srcpOf (V6 m ρ) c (ix1 j) = if h : j.val < 1600000 then argSrc m c (ix1 ⟨j.val, h⟩) else 0#32 := by
  rw [V6_v2_eq]
  exact pad_hi_apply (argSrc m c) 0#32 _ _ j

/-- The destination words the first region reads: the argument, padded with the last padded column's number. -/
theorem V6_dst (c : Dev nD) (j : Fin 1601536) :
    dstpOf (V6 m ρ) c (ix1 j) = if h : j.val < 1600000 then argDst m c (ix1 ⟨j.val, h⟩) else 100351#32 := by
  rw [V6_v3_eq]
  exact pad_hi_apply (argDst m c) 100351#32 _ _ j

/-- The aggregate the projection reads: the first region's result, cut to the nodes and transposed. -/
theorem V8_h (c : Dev nD) (r : Fin 100000) (k : Fin 32) :
    hOf (V8 m ρ) c (ix2 r k) = acc0 (V6 m ρ) c (ix2 k ⟨r.val, by omega⟩) := by
  rw [V8_v6_eq]
  -- entry (r, k) of the transpose is entry (k, r) of the cut, which is entry (k, r) of the whole result
  refine (transpose_apply _ _ _ (ix2 r k) (ix2 k r) fun b => ?_).trans ?_
  · match b with
    | ⟨0, _⟩ => rfl
    | ⟨1, _⟩ => rfl
  · refine extractStridedSlice_apply _ _ _ (ix2 k r) (ix2 k ⟨r.val, by omega⟩) fun a => ?_
    match a with
    | ⟨0, _⟩ => show k.val = 0 + k.val; omega
    | ⟨1, _⟩ => show r.val = 0 + r.val; omega

/-- The weights the projection reads: the argument transposed. -/
theorem V8_wt (c : Dev nD) (k o : Fin 32) : wtOf (V8 m ρ) c (ix2 k o) = argW m c (ix2 o k) := by
  rw [V8_v7_eq]
  refine transpose_apply _ _ _ _ _ fun b => ?_
  match b with
  | ⟨0, _⟩ => rfl
  | ⟨1, _⟩ => rfl

/-- The bias the projection reads: the argument. The second region reads it through an input window and no
    host operation writes it, so its contents at that region's entry are those at the end, which are the launch's. -/
theorem V8_b (c : Dev nD) : biasOf (V8 m ρ) c = argB m c := by
  show W8 m ρ c (Proc.devRef .tc main_arg4) = m ((c : Thread nD τ).loc main_arg4)
  exact (((W9_arr m ρ c 2).trans (((dat1 (V8 m ρ) c).arrAt_in 2 rfl _).trans (A_eq1 (V8 m ρ) c 2))).symm).trans
    (W9_main_arg4 m ρ c)

end Cert.KernelIdeal.Hand

end
-- ==== Proof.Math.lean ====
/- From the kernel's block-by-block one-hot sums to the aggregate.

   The padded edge positions are cut into 782 blocks of 2048; summing a function of the flat position over
   the blocks and then inside each block is summing it over all 1601536 positions. The 1536 padding
   positions carry the destination word 100351, which is no node, so they add nothing. At a real edge the
   one-hot product over the 100352 padded table columns has exactly one non-zero term, the column the
   source word names, and that column of the transposed padded table is the source node's feature row; the
   destination's one-hot entry is 1 exactly when the destination word, read signed, is the node. -/
import proofs.«403150_j463856468209_1_alg».proof.Proof.Spec
import Mathlib.Algebra.BigOperators.Intervals

noncomputable section

open scoped BigOperators

namespace Cert.Spec

open Idealize.ShloMosaic Idealize.ShloMosaic.ValueIdx

/-- Summing over B-blocks and inside each block is summing over the flat range. -/
theorem sum_blocks {M : Type} [AddCommMonoid M] (g : ℕ → M) (B : ℕ) : ∀ S : ℕ,
    ∑ s ∈ Finset.range S, ∑ e ∈ Finset.range B, g (s * B + e) = ∑ j ∈ Finset.range (S * B), g j
  | 0 => by simp
  | S + 1 => by
    rw [Finset.sum_range_succ, sum_blocks g B S, Nat.succ_mul, Finset.sum_range_add]

/-- A word that is not negative when read signed is read signed as it is read unsigned. -/
theorem toInt_eq_toNat_of_nonneg (s : BitVec 32) (h : 0 ≤ s.toInt) : s.toInt = (s.toNat : ℤ) := by
  have hlt := s.isLt
  rw [BitVec.toInt_eq_toNat_cond] at h ⊢
  by_cases hc : 2 * s.toNat < 2 ^ 32
  · rw [if_pos hc]
  · rw [if_neg hc] at h
    omega

/-- A small number's word is a given word exactly when the number is the word's unsigned value. -/
theorem ofNat_eq_iff (n : ℕ) (hn : n < 2 ^ 32) (s : BitVec 32) : BitVec.ofNat 32 n = s ↔ n = s.toNat := by
  constructor
  · intro h
    rw [← h, BitVec.toNat_ofNat, Nat.mod_eq_of_lt hn]
  · intro h
    rw [h, BitVec.ofNat_toNat, BitVec.setWidth_eq]

/-- The one-hot product over the padded table's columns selects the column the word names. -/
theorem msgAt_eq (tbl : FVec Ideal STabP .f32) (s : BitVec 32) (f : Fin 32) (hs : s.toNat < 100352) :
    msgAt tbl s f = tbl (ix2 f ⟨s.toNat, hs⟩) := by
  unfold msgAt
  rw [Finset.sum_eq_single (⟨s.toNat, hs⟩ : Fin 100352)]
  · unfold hot
    rw [if_pos ((ofNat_eq_iff _ (by omega) s).mpr rfl), mul_one]
  · intro b _ hb
    unfold hot
    rw [if_neg, mul_zero]
    intro h
    exact hb (Fin.ext ((ofNat_eq_iff _ (by have := b.isLt; omega) s).mp h))
  · intro h
    exact absurd (Finset.mem_univ _) h

/-- The destination's one-hot entry: 1 exactly when the word, read signed, is the node. -/
theorem hot_node (n : ℕ) (hn : n < 100000) (d : BitVec 32) :
    hot (BitVec.ofNat 32 n) d = if d.toInt = (n : ℤ) then 1 else 0 := by
  unfold hot
  have hiff : BitVec.ofNat 32 n = d ↔ d.toInt = (n : ℤ) := by
    rw [ofNat_eq_iff n (by omega) d]
    have hlt := d.isLt
    rw [BitVec.toInt_eq_toNat_cond]
    constructor
    · intro h
      rw [if_pos (by omega)]
      omega
    · intro h
      split at h <;> omega
  by_cases hd : d.toInt = (n : ℤ)
  · rw [if_pos (hiff.mpr hd), if_pos hd]
  · rw [if_neg (fun h => hd (hiff.mp h)), if_neg hd]

/-- THE AGGREGATE FROM THE BLOCKS: over the 782 edge blocks, what the grid points add at (f, n) for a node n
    is the node's aggregate at feature f, when every source word names a table row. -/
theorem sum_points_eq_agg (feat : FVec Ideal SFeat .f32) (src dst : IVec SEdge 32)
    (tbl : FVec Ideal STabP .f32) (srcp dstp : IVec SEdgeP 32)
    (hsrc : ∀ e : Fin 1600000, 0 ≤ (src (ix1 e)).toInt ∧ (src (ix1 e)).toInt < 100000)
    (htbl : ∀ (f : Fin 32) (n' : Fin 100352),
      tbl (ix2 f n') = if h : n'.val < 100000 then feat (ix2 ⟨n'.val, h⟩ f) else 0)
    (hsrcp : ∀ j : Fin 1601536, srcp (ix1 j) = if h : j.val < 1600000 then src (ix1 ⟨j.val, h⟩) else 0#32)
    (hdstp : ∀ j : Fin 1601536, dstp (ix1 j) = if h : j.val < 1600000 then dst (ix1 ⟨j.val, h⟩) else 100351#32)
    (n : Fin 100000) (f : Fin 32) :
    ∑ s ∈ Finset.range 782, pointAdd tbl srcp dstp s f ⟨n.val, by omega⟩ = agg feat src dst n f := by
  -- one summand per flat position
  let g : ℕ → EReal := fun j =>
    msgAt tbl (padIdx srcp j) f * hot (BitVec.ofNat 32 n.val) (padIdx dstp j)
  have hpoint : ∀ s, pointAdd tbl srcp dstp s f ⟨n.val, by omega⟩ = ∑ e ∈ Finset.range 2048, g (s * 2048 + e) := by
    intro s
    unfold pointAdd
    rw [Finset.sum_range]
  rw [Finset.sum_congr rfl (fun s _ => hpoint s), sum_blocks g 2048 782,
    show 782 * 2048 = 1600000 + 1536 from rfl, Finset.sum_range_add]
  -- the padding positions add nothing
  have hpad : ∑ x ∈ Finset.range 1536, g (1600000 + x) = 0 := by
    refine Finset.sum_eq_zero fun x hx => ?_
    have hx' : x < 1536 := Finset.mem_range.mp hx
    show msgAt tbl (padIdx srcp (1600000 + x)) f * hot (BitVec.ofNat 32 n.val) (padIdx dstp (1600000 + x)) = 0
    have hd : padIdx dstp (1600000 + x) = 100351#32 := by
      unfold padIdx
      rw [dif_pos (by omega), hdstp, dif_neg (by simp)]
    have h351 : (100351#32 : BitVec 32).toInt = 100351 := by decide
    rw [hd, hot_node n.val n.isLt, if_neg (by have := n.isLt; omega), mul_zero]
  rw [hpad, add_zero, Finset.sum_range]
  -- the real edges
  unfold agg
  rw [Finset.sum_filter]
  refine Finset.sum_congr rfl fun e _ => ?_
  show msgAt tbl (padIdx srcp e.val) f * hot (BitVec.ofNat 32 n.val) (padIdx dstp e.val) = _
  have he := e.isLt
  have hs : padIdx srcp e.val = src (ix1 e) := by
    unfold padIdx
    rw [dif_pos (by omega), hsrcp, dif_pos he]
  have hd : padIdx dstp e.val = dst (ix1 e) := by
    unfold padIdx
    rw [dif_pos (by omega), hdstp, dif_pos he]
  obtain ⟨h0, h1⟩ := hsrc e
  have hnat := toInt_eq_toNat_of_nonneg _ h0
  have hlt : (src (ix1 e)).toNat < 100000 := by omega
  rw [hs, hd, hot_node n.val n.isLt, msgAt_eq tbl _ f (by omega), htbl, dif_pos hlt]
  have hrow : (⟨(src (ix1 e)).toNat, hlt⟩ : Fin 100000) = srcRow (src (ix1 e)) := by
    unfold srcRow
    refine Fin.ext ?_
    show (src (ix1 e)).toNat = min (src (ix1 e)).toInt.toNat 99999
    omega
  rw [hrow]
  by_cases hdn : (dst (ix1 e)).toInt = (n.val : ℤ)
  · rw [if_pos hdn, if_pos hdn, mul_one]
  · rw [if_neg hdn, if_neg hdn, mul_zero]

end Cert.Spec

end
-- ==== Proof.KernelValue.lean ====
import proofs.«403150_j463856468209_1_alg».proof.Proof.RunMain
import proofs.«403150_j463856468209_1_alg».proof.Proof.Grid
import proofs.«403150_j463856468209_1_alg».proof.Proof.Region1
import proofs.«403150_j463856468209_1_alg».proof.Proof.Host
import proofs.«403150_j463856468209_1_alg».proof.Proof.Math

set_option maxRecDepth 16384

noncomputable section

open scoped BigOperators
namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The specification's array at (r, o). -/
theorem out_ix2 (feat : FVec Ideal Spec.SFeat .f32) (src dst : IVec Spec.SEdge 32) (W : FVec Ideal Spec.SWt .f32)
    (b : FVec Ideal Spec.SBias .f32) (r : Fin 100000) (o : Fin 32) :
    Spec.out feat src dst W b (ix2 r o) = Spec.outAt feat src dst W b r o := rfl

/-- The projection's result array is the specification of the launched arguments, when every source word names a
    table row: the projection reads the first region's accumulator cut to the nodes and transposed; the accumulator
    at a node's column is the sum of the 782 grid points' contributions, which is the node's aggregate. -/
theorem kernel_value (c : Dev nD)
    (hsrc : ∀ e : Fin 1600000, 0 ≤ (argSrc m c (ix1 e)).toInt ∧ (argSrc m c (ix1 e)).toInt < 100000) :
    res1 (V8 m ρ) c = Spec.out (argFeat m c) (argSrc m c) (argDst m c) (argW m c) (argB m c) := by
  funext i
  obtain ⟨r, o, rfl⟩ : ∃ (r : Fin 100000) (o : Fin 32), i = ix2 r o := ⟨i 0, i 1, eq_ix2 i⟩
  rw [arr1_apply, V8_b, out_ix2]
  unfold Spec.outAt
  refine congrArg (· + argB m c (ix1 o)) ?_
  refine Finset.sum_congr rfl fun k _ => ?_
  rw [V8_h, V8_wt, arr0_apply]
  exact congrArg (· * argW m c (ix2 o k))
    (Spec.sum_points_eq_agg (argFeat m c) (argSrc m c) (argDst m c) _ _ _ hsrc (V6_tbl m ρ c) (V6_src m ρ c) (V6_dst m ρ c) r k)

/-- What the fold through the program leaves in the result buffer is the second region's result array. -/
theorem W9_result (c : Dev nD) : W9 m ρ c (Proc.devRef .tc main_v8) = res1 (V8 m ρ) c :=
  W9_arr m ρ c 3

end Cert.KernelIdeal.Hand

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.RefValue.lean ====
import proofs.«403150_j463856468209_1_alg».proof.Proof.Gen.ReferenceIdeal.Run
import proofs.«403150_j463856468209_1_alg».proof.Proof.Gen.ReferenceIdeal.Read
import proofs.«403150_j463856468209_1_alg».proof.Proof.LibRowGatherScatter
import proofs.«403150_j463856468209_1_alg».proof.Proof.Spec

set_option maxRecDepth 16384

noncomputable section

open scoped BigOperators

namespace Cert.ReferenceIdeal.RefValue

open Cert.ReferenceIdeal Cert.ReferenceIdeal.Gen Idealize.ShloMosaic Idealize.ShloMosaic.ValueIdx Idealize.ShloMosaic.StableHlo
open Cert.ReferenceIdeal.Read Cert.ReferenceIdeal.Hand

/-- The program's gather record is the row gather of a [100000, 32] table at a column of 1600000 start words. -/
theorem gather_rec :
    gather_S100000x32_S1600000x1_S1600000x32_1_0_n_n_0_1_132
      = rowGather 100000 1600000 32 gather_S100000x32_S1600000x1_S1600000x32_1_0_n_n_0_1_132_wf := rfl

/-- The program's scatter record is the row scatter of [1600000, 32] updates into a [100000, 32] operand. -/
theorem scatter_rec :
    scatter_S100000x32_S1600000x1_S1600000x32_1_0_0_1
      = rowScatter 100000 1600000 32 scatter_S100000x32_S1600000x1_S1600000x32_1_0_0_1_wf := rfl

/-- The bias spread over the rows, at (n, o): the bias at o. -/
theorem bias_at (x4 : (⟨S32, .f32⟩ : BufTy).Contents (Elt Ideal)) (n : Fin 100000) (o : Fin 32) :
    val_main_v12 (F := Ideal) x4 (ix2 n o) = x4 (ix1 o) := by
  rw [val_main_v12_apply, val_main_v11_apply]
  refine congrArg x4 (funext fun a => ?_)
  match a with
  | ⟨0, _⟩ => rfl

/-- The start word of edge e in the gather's column: the source word itself, since it is not negative. -/
theorem start_at (x1 : (⟨S1600000, .i32⟩ : BufTy).Contents (Elt Ideal))
    (hsrc : ∀ e : Fin 1600000, 0 ≤ ((x1 : IVec S1600000 32) (ix1 e)).toInt) (e : Fin 1600000) :
    val_main_v5 (F := Ideal) x1 (ix2 e 0) = x1 (ix1 e) := by
  have hi : idx_main_v5 (ix2 e (0 : Fin 1)) = ix1 e := funext fun a => by
    match a with
    | ⟨0, _⟩ => rfl
  rw [val_main_v5_apply, hi, val_main_v4_apply, val_main_v1_apply, val_main_v3_apply, val_main_v0_apply,
    val_main_c_apply, wrap_select, if_neg (not_lt.mpr (hsrc e))]

/-- The gathered message of edge e at feature k: the feature row the source word names. -/
theorem gather_at (x0 : (⟨S100000x32, .f32⟩ : BufTy).Contents (Elt Ideal)) (x1 : (⟨S1600000, .i32⟩ : BufTy).Contents (Elt Ideal))
    (hsrc : ∀ e : Fin 1600000, 0 ≤ ((x1 : IVec S1600000 32) (ix1 e)).toInt) (e : Fin 1600000) (k : Fin 32) :
    val_main_v6 (F := Ideal) x0 x1 (ix2 e k) = x0 (ix2 (Cert.Spec.srcRow (x1 (ix1 e))) k) := by
  unfold val_main_v6
  rw [gather_rec]
  exact rowGather_apply_of_eq (by decide) _ x0 (val_main_v5 (F := Ideal) x1) e k (x1 (ix1 e)) (start_at x1 hsrc e)

/-- The destination column at (e, 0): the destination word of e. -/
theorem dst_at (x2 : (⟨S1600000, .i32⟩ : BufTy).Contents (Elt Ideal)) (e : Fin 1600000) :
    val_main_v8 (F := Ideal) x2 (ix2 e 0) = x2 (ix1 e) := by
  rw [val_main_v8_apply]
  refine congrArg x2 (funext fun a => ?_)
  match a with
  | ⟨0, _⟩ => rfl

/-- The zero operand of the scatter reads 0 everywhere. -/
theorem zero_at (j : S100000x32.Idx) : val_main_v7 (F := Ideal) j = 0 := by
  rw [val_main_v7_apply, val_main_cst_apply]
  exact Ideal.ofBits_zero_f32

/-- The scattered sums at (n, k): the aggregate of node n at feature k. -/
theorem agg_at (x0 : (⟨S100000x32, .f32⟩ : BufTy).Contents (Elt Ideal)) (x1 x2 : (⟨S1600000, .i32⟩ : BufTy).Contents (Elt Ideal))
    (hsrc : ∀ e : Fin 1600000, 0 ≤ ((x1 : IVec S1600000 32) (ix1 e)).toInt) (n : Fin 100000) (k : Fin 32) :
    val_main_v9 (F := Ideal) x0 x1 x2 (ix2 n k) = Cert.Spec.agg x0 x1 x2 n k := by
  unfold val_main_v9 Cert.Spec.agg
  rw [scatter_rec]
  refine (rowScatterAdd_apply _ (val_main_v8 (F := Ideal) x2) (val_main_v7 (F := Ideal)) (val_main_v6 (F := Ideal) x0 x1) n k).trans ?_
  rw [zero_at, zero_add]
  simp only [dst_at]
  exact Finset.sum_congr rfl fun e _ => gather_at x0 x1 hsrc e k

/-- The reference's result is the specification, when no source word is negative (a negative word would count
    from the table's end): the gather reads the clamped source row, the accumulating scatter sums the edges whose
    destination word is the node, the contraction runs over the 32 features, and the bias row is added. -/
theorem ref_value (x0 : (⟨S100000x32, .f32⟩ : BufTy).Contents (Elt Ideal)) (x1 x2 : (⟨S1600000, .i32⟩ : BufTy).Contents (Elt Ideal))
    (x3 : (⟨S32x32, .f32⟩ : BufTy).Contents (Elt Ideal)) (x4 : (⟨S32, .f32⟩ : BufTy).Contents (Elt Ideal))
    (hsrc : ∀ e : Fin 1600000, 0 ≤ ((x1 : IVec S1600000 32) (ix1 e)).toInt) :
    val_main_v13 (F := Ideal) x0 x1 x2 x3 x4 = Cert.Spec.out x0 x1 x2 x3 x4 := by
  funext i
  obtain ⟨n, o, rfl⟩ : ∃ (n : Fin 100000) (o : Fin 32), i = ix2 n o := ⟨i 0, i 1, eq_ix2 i⟩
  show _ = Cert.Spec.outAt x0 x1 x2 x3 x4 n o
  unfold Cert.Spec.outAt
  rw [val_main_v13_apply, val_main_v10_apply, bias_at]
  refine congrArg (· + x4 (ix1 o)) (Finset.sum_congr rfl fun k _ => ?_)
  have hl : lidx_main_v10 (ix2 n o) k = ix2 n k := funext fun a => by
    match a with
    | ⟨0, _⟩ => rfl
    | ⟨1, _⟩ => rfl
  have hr : ridx_main_v10 (ix2 n o) k = ix2 o k := funext fun a => by
    match a with
    | ⟨0, _⟩ => rfl
    | ⟨1, _⟩ => rfl
  rw [hl, hr, agg_at x0 x1 x2 hsrc n k]

end Cert.ReferenceIdeal.RefValue

end
-- ==== Proof.PreDecode.lean ====
import proofs.«403150_j463856468209_1_alg».proof.Proof.Gen.Pre_finite_inputs
import Idealize.ShloMosaic.Lib.StableHlo.Predicate
import Idealize.ShloMosaic.Lib.ReduceAll
import Idealize.ShloMosaic.Lib.ValueIdx

set_option maxRecDepth 16384

noncomputable section

open scoped BigOperators

namespace Cert.Pre_finite_inputs.Hand

open Idealize.ShloMosaic Idealize.ShloMosaic.ValueIdx Cert.Pre_finite_inputs

/-- What the precondition says of the source words: each, read signed, names a row of the feature table. -/
theorem src_range [Cert.Pre_finite_inputs.Facts] (a0 : FVec Ideal S100000x32 .f32) (a1 a2 : IVec S1600000 32)
    (a3 : FVec Ideal S32x32 .f32) (a4 : FVec Ideal S32 .f32)
    (h : Cert.Pre_finite_inputs.fn (F := Ideal) a0 a1 a2 a3 a4 = fun _ => 1#1) (e : Fin 1600000) :
    0 ≤ (a1 (ix1 e)).toInt ∧ (a1 (ix1 e)).toInt < 100000 := by
  -- a rank-0 shape has one index
  haveI : Subsingleton S_.Idx := ⟨fun a b => funext fun d => d.elim0⟩
  -- the predicate's one word, with the chain of operations in view
  have h0 := congrFun h ValueIdx.ix0
  dsimp only [fn, fn_part1] at h0
  -- the outer conjunctions: the last conjunct is all (src < 100000), the one before it all (src ≥ 0)
  obtain ⟨h1, hlt⟩ := IntOp.andi_eq_one.1 h0
  obtain ⟨-, hge⟩ := IntOp.andi_eq_one.1 h1
  -- a conjunction over all edges that holds, holds at edge e
  have hge' := Host.reduce_andi_all _ _ _ _ _ hge (ix1 e)
  have hlt' := Host.reduce_andi_all _ _ _ _ _ hlt (ix1 e)
  -- the comparisons at e: the second operand is a broadcast scalar, read as the scalar itself
  change IntOp.cmpi .sge (a1 (ix1 e)) (broadcastInDim S1600000 ![] _ (constantI S_ 32 0#32) (ix1 e)) = 1#1 at hge'
  change IntOp.cmpi .slt (a1 (ix1 e)) (broadcastInDim S1600000 ![] _ (constantI S_ 32 100000#32) (ix1 e)) = 1#1 at hlt'
  rw [StableHlo.Predicate.bcast_scalar _ Facts.h_S_] at hge' hlt'
  -- a constant tensor read anywhere is its word
  change IntOp.cmpi .sge (a1 (ix1 e)) 0#32 = 1#1 at hge'
  change IntOp.cmpi .slt (a1 (ix1 e)) 100000#32 = 1#1 at hlt'
  rw [IntOp.cmpi_sge] at hge'
  rw [IntOp.cmpi_slt] at hlt'
  -- signed values of the two constants
  have z0 : (0#32 : BitVec 32).toInt = 0 := by decide
  have z1 : (100000#32 : BitVec 32).toInt = 100000 := by decide
  rw [z0] at hge'
  rw [z1] at hlt'
  exact ⟨hge', hlt'⟩

end Cert.Pre_finite_inputs.Hand

end
-- ==== Proof.lean ====
/- Both programs compute, for every node, the sum of the feature rows of the sources of the edges that end at the
   node, times the transposed weight matrix, plus the bias (proof/Proof/Spec.lean).

   The reference does it with a row gather and an accumulating row scatter. The kernel pads the nodes to 49 tiles of
   2048 columns and the edges to 782 blocks of 2048, and does both steps by one-hot products: a first grid of 782
   points accumulates, per edge block, the selected source rows into the destination columns; a second grid
   projects the accumulator's node columns. Over the extended reals a one-hot product is a sum with one non-zero
   term, sums regroup freely, and the padding edges point at a padding column, so the two results agree entry by
   entry — provided every source word names a row of the feature table, which the precondition states (outside
   that range the reference wraps or clamps the word while the one-hot product selects nothing).

   The frames of the two kernel programs are the generated ones; the reference's frame is its generated run with
   the result dropped; the idealization rewrote nothing. -/
import proofs.«403150_j463856468209_1_alg».proof.Defs
import proofs.«403150_j463856468209_1_alg».proof.Proof.Gen.Kernel
import proofs.«403150_j463856468209_1_alg».proof.Proof.Gen.Kernel.Skeleton
import proofs.«403150_j463856468209_1_alg».proof.Proof.Gen.Kernel.Loops
import proofs.«403150_j463856468209_1_alg».proof.Proof.Gen.Kernel.Launch
import proofs.«403150_j463856468209_1_alg».proof.Proof.Gen.Kernel.Points
import proofs.«403150_j463856468209_1_alg».proof.Proof.Gen.Kernel.Frame
import proofs.«403150_j463856468209_1_alg».proof.Proof.Gen.KernelIdeal
import proofs.«403150_j463856468209_1_alg».proof.Proof.Gen.KernelIdeal.Skeleton
import proofs.«403150_j463856468209_1_alg».proof.Proof.Gen.KernelIdeal.Loops
import proofs.«403150_j463856468209_1_alg».proof.Proof.Gen.KernelIdeal.Launch
import proofs.«403150_j463856468209_1_alg».proof.Proof.Gen.KernelIdeal.Points
import proofs.«403150_j463856468209_1_alg».proof.Proof.Gen.KernelIdeal.Frame
import proofs.«403150_j463856468209_1_alg».proof.Proof.Gen.ReferenceIdeal
import proofs.«403150_j463856468209_1_alg».proof.Proof.Gen.Pre_finite_inputs
import proofs.«403150_j463856468209_1_alg».proof.Proof.KernelValue
import proofs.«403150_j463856468209_1_alg».proof.Proof.RefValue
import proofs.«403150_j463856468209_1_alg».proof.Proof.PreDecode
import Idealize.ShloMosaic.Adequacy
import Idealize.ShloMosaic.Init

noncomputable section

namespace Cert.Proof

open Idealize.ShloMosaic Idealize.SL.Sem Idealize.ShloMosaic.ValueIdx

/-- The result both programs end with, from the kernel program's launch memory. -/
def result (m : (ℓ : Loc Cert.KernelIdeal.nD Cert.KernelIdeal.τ Cert.KernelIdeal.sig) → Buf (Elt Ideal) ℓ)
    (c : Dev Cert.KernelIdeal.nD) : FVec Ideal Cert.Spec.SFeat .f32 :=
  Cert.Spec.out (Cert.KernelIdeal.Hand.argFeat m c) (Cert.KernelIdeal.Hand.argSrc m c) (Cert.KernelIdeal.Hand.argDst m c)
    (Cert.KernelIdeal.Hand.argW m c) (Cert.KernelIdeal.Hand.argB m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree => by
    have hsrc : ∀ (c : Dev Cert.KernelIdeal.nD) (e : Fin 1600000),
        0 ≤ (Cert.KernelIdeal.Hand.argSrc m c (ix1 e)).toInt ∧ (Cert.KernelIdeal.Hand.argSrc m c (ix1 e)).toInt < 100000 :=
      fun c e => Cert.Pre_finite_inputs.Hand.src_range _ _ _ _ _ (hpre c) e
    refine ⟨fun c => result m c, ?_, ?_⟩
    · exact (θ_run Cert.KernelIdeal.defs _ _).mono
        (fun r h c => ⟨(h c).1.trans ((Cert.KernelIdeal.Hand.W9_result m ρ c).trans (Cert.KernelIdeal.Hand.kernel_value m ρ c (hsrc c))), (h c).2⟩)
        (Cert.KernelIdeal.GenP.run_main m ρ)
    · refine (θ_run Cert.ReferenceIdeal.defs _ _).mono (fun r h c => ⟨?_, (h c).2⟩)
        (Cert.ReferenceIdeal.Value.run (F := Ideal) m' ρ')
      rw [(h c).1, Cert.ReferenceIdeal.Read.val_main_v13_eq,
        (hagree c).1, (hagree c).2.1, (hagree c).2.2.1, (hagree c).2.2.2.1, (hagree c).2.2.2.2]
      exact Cert.ReferenceIdeal.RefValue.ref_value _ _ _ _ _ (fun e => (hsrc c e).1)⟩

end Cert.Proof

end
